-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S500000x1 : Shape := ⟨2, ![500000, 1]⟩
abbrev S1000000x2 : Shape := ⟨2, ![1000000, 2]⟩
abbrev S64x64 : Shape := ⟨2, ![64, 64]⟩
abbrev S64 : Shape := ⟨1, ![64]⟩
abbrev S128x128 : Shape := ⟨2, ![128, 128]⟩
abbrev S128 : Shape := ⟨1, ![128]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part3 {F : FTy → Type} [FloatOps F] (main_arg13 : FVec F S64x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x64 .f32) (main_arg12 : FVec F S64 .f32) (main_arg13 : FVec F S64x64 .f32) (main_arg14 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S64x64 .f32) (main_arg14 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S500000x1 32) (main_arg2 : IVec S1000000x2 32) (main_arg3 : FVec F S64x64 .f32) (main_arg4 : FVec F S64 .f32) (main_arg5 : FVec F S64x64 .f32) (main_arg6 : FVec F S64 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S64x64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S500000x1 : Shape := ⟨2, ![500000, 1]⟩
abbrev S1000000x2 : Shape := ⟨2, ![1000000, 2]⟩
abbrev S64x64 : Shape := ⟨2, ![64, 64]⟩
abbrev S64 : Shape := ⟨1, ![64]⟩
abbrev S128x128 : Shape := ⟨2, ![128, 128]⟩
abbrev S128 : Shape := ⟨1, ![128]⟩
abbrev S128x64 : Shape := ⟨2, ![128, 64]⟩
abbrev S500000 : Shape := ⟨1, ![500000]⟩
abbrev S_ : Shape := ⟨0, ![]⟩
abbrev S500000x64 : Shape := ⟨2, ![500000, 64]⟩
abbrev S1x64 : Shape := ⟨2, ![1, 64]⟩
abbrev S10000x64 : Shape := ⟨2, ![10000, 64]⟩
abbrev S2000000 : Shape := ⟨1, ![2000000]⟩
abbrev S1000000x2x1 : Shape := ⟨3, ![1000000, 2, 1]⟩
abbrev S1000000x2x64 : Shape := ⟨3, ![1000000, 2, 64]⟩
abbrev S1000000x128 : Shape := ⟨2, ![1000000, 128]⟩
abbrev S1x128 : Shape := ⟨2, ![1, 128]⟩
abbrev S8000x128 : Shape := ⟨2, ![8000, 128]⟩
abbrev S2000000x64 : Shape := ⟨2, ![2000000, 64]⟩
abbrev S2000000x1 : Shape := ⟨2, ![2000000, 1]⟩

abbrev nBuf : Space → Nat
  | .hbm => 57
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S500000x1, .i32⟩
  | .hbm, ⟨2, _⟩ => ⟨S1000000x2, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S500000, .i32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x64, .f32⟩
  | .hbm, ⟨25, _⟩ => ⟨S1x64, .f32⟩
  | .hbm, ⟨26, _⟩ => ⟨S1x64, .f32⟩
  | .hbm, ⟨27, _⟩ => ⟨S500000x64, .f32⟩
  | .hbm, ⟨28, _⟩ => ⟨S2000000, .i32⟩
  | .hbm, ⟨29, _⟩ => ⟨S_, .i32⟩
  | .hbm, ⟨30, _⟩ => ⟨S1000000x2, .i32⟩
  | .hbm, ⟨31, _⟩ => ⟨S1000000x2, .i1⟩
  | .hbm, ⟨32, _⟩ => ⟨S_, .i32⟩
  | .hbm, ⟨33, _⟩ => ⟨S1000000x2, .i32⟩
  | .hbm, ⟨34, _⟩ => ⟨S1000000x2, .i32⟩
  | .hbm, ⟨35, _⟩ => ⟨S1000000x2, .i32⟩
  | .hbm, ⟨36, _⟩ => ⟨S1000000x2x1, .i32⟩
  | .hbm, ⟨37, _⟩ => ⟨S1000000x2x64, .f32⟩
  | .hbm, ⟨38, _⟩ => ⟨S1000000x128, .f32⟩
  | .hbm, ⟨39, _⟩ => ⟨S1x128, .f32⟩
  | .hbm, ⟨40, _⟩ => ⟨S1x128, .f32⟩
  | .hbm, ⟨41, _⟩ => ⟨S1000000x128, .f32⟩
  | .hbm, ⟨42, _⟩ => ⟨S2000000x64, .f32⟩
  | .hbm, ⟨43, _⟩ => ⟨S_, .f32⟩
  | .hbm, ⟨44, _⟩ => ⟨S100000x64, .f32⟩
  | .hbm, ⟨45, _⟩ => ⟨S500000x1, .i32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S2000000x1, .i32⟩
  | .hbm, ⟨50, _⟩ => ⟨S100000x64, .f32⟩
  | .hbm, ⟨51, _⟩ => ⟨S100000x64, .f32⟩
  | .hbm, ⟨52, _⟩ => ⟨S64x64, .f32⟩
  | .hbm, ⟨53, _⟩ => ⟨S64x64, .f32⟩
  | .hbm, ⟨54, _⟩ => ⟨S1x64, .f32⟩
  | .hbm, ⟨55, _⟩ => ⟨S1x64, .f32⟩
  | .hbm, ⟨56, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S8000x128, .f32⟩
  | .local _ .vmem, ⟨9, _⟩ => ⟨S8000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S8000x128, .f32⟩
  | .local _ .vmem, ⟨15, _⟩ => ⟨S8000x128, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S64x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S1000000x2_S2000000 : S1000000x2.ShapeCasts S2000000
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x64_S1000000x128 : S1000000x2x64.ShapeCasts S1000000x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  shapeCasts_S1000000x128_S2000000x64 : S1000000x128.ShapeCasts S2000000x64
  bcast_S_S100000x64 : S_.BroadcastsInDim S100000x64 (![] : Fin 0 → Fin S100000x64.rank)
  bcast_S2000000_S2000000x1_0 : S2000000.BroadcastsInDim S2000000x1 (![0] : Fin 1 → Fin S2000000x1.rank)
  slices_S128x64_S64x64_0_0 : S128x64.Slices ![0, 0] S64x64
  slices_S128x64_S64x64_64_0 : S128x64.Slices ![64, 0] S64x64
  shapeCasts_S64x64_S64x64 : S64x64.ShapeCasts S64x64
  gather_S100000x64_S500000x1_S500000x64_1_0_n_n_0_1_164_wf : GatherDims.WF S100000x64 S500000x1 S500000x64 [1] [0] [] [0] [] 1 ![1, 64]
  dot_S10000x64_S64x64_S10000x64_1_0_0_1_n_n_wf : DotDims.WF S10000x64 S64x64 S10000x64 [1] [0] [0] [1] [] []
  gather_S100000x64_S1000000x2x1_S1000000x2x64_2_0_n_n_0_2_164_wf : GatherDims.WF S100000x64 S1000000x2x1 S1000000x2x64 [2] [0] [] [0] [] 2 ![1, 64]
  dot_S8000x128_S128x128_S8000x128_1_0_0_1_n_n_wf : DotDims.WF S8000x128 S128x128 S8000x128 [1] [0] [0] [1] [] []
  scatter_S100000x64_S500000x1_S500000x64_1_0_0_1_wf : ScatterDims.WF S100000x64 S500000x1 S500000x64 [1] [0] [0] 1
  scatter_S100000x64_S2000000x1_S2000000x64_1_0_0_1_wf : ScatterDims.WF S100000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .f32 = 32 ∨ (Rect.block (s := S500000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S500000x64.size a
  hwx0_5 : ∀ i : grid0.Coords, EltTy.bits .f32 = 32 ∨ (Rect.block (s := S500000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1000000x128.size a
  hwx1_0 : ∀ i : grid1.Coords, EltTy.bits .f32 = 32 ∨ (Rect.block (s := S1000000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S1000000x128.size a
  hwx1_5 : ∀ i : grid1.Coords, EltTy.bits .f32 = 32 ∨ (Rect.block (s := S1000000x128) S8000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S100000x64.size a
  hwx2_7 : ∀ i : grid2.Coords, EltTy.bits .f32 = 32 ∨ (Rect.block (s := S100000x64) S10000x64.size (cc2_transform_7 i) (hinb2_7 i)).WholeWords (EltTy.packing .f32)

variable [Facts₀]

def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x2x1_S1000000x2x64_2_0_n_n_0_2_164 : GatherDims S100000x64 S1000000x2x1 S1000000x2x64 where
  offsetDims := [2]
  collapsedSliceDims := [0]
  operandBatchingDims := []
  startIndicesBatchingDims := []
  startIndexMap := [0]
  indexVectorDim := 2
  sliceSizes := ![1, 64]
  wf := gather_S100000x64_S1000000x2x1_S1000000x2x64_2_0_n_n_0_2_164_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf

abbrev win0_0 : Pipeline.Window sig grid0 :=
  Pipeline.Window.ofSpec (Memref.whole main_v7) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v35) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S500000x1 : Shape := ⟨2, ![500000, 1]⟩
abbrev S1000000x2 : Shape := ⟨2, ![1000000, 2]⟩
abbrev S64x64 : Shape := ⟨2, ![64, 64]⟩
abbrev S64 : Shape := ⟨1, ![64]⟩
abbrev S128x128 : Shape := ⟨2, ![128, 128]⟩
abbrev S128 : Shape := ⟨1, ![128]⟩
abbrev S128x64 : Shape := ⟨2, ![128, 64]⟩
abbrev S_ : Shape := ⟨0, ![]⟩
abbrev S500000x1x1 : Shape := ⟨3, ![500000, 1, 1]⟩
abbrev S500000x1x64 : Shape := ⟨3, ![500000, 1, 64]⟩
abbrev S500000x64 : Shape := ⟨2, ![500000, 64]⟩
abbrev S1x64 : Shape := ⟨2, ![1, 64]⟩
abbrev S500000 : Shape := ⟨1, ![500000]⟩
abbrev S1000000x2x1 : Shape := ⟨3, ![1000000, 2, 1]⟩
abbrev S1000000x2x64 : Shape := ⟨3, ![1000000, 2, 64]⟩
abbrev S1000000x128 : Shape := ⟨2, ![1000000, 128]⟩
abbrev S1x128 : Shape := ⟨2, ![1, 128]⟩
abbrev S2000000x64 : Shape := ⟨2, ![2000000, 64]⟩
abbrev S2000000 : Shape := ⟨1, ![2000000]⟩
abbrev S2000000x1 : Shape := ⟨2, ![2000000, 1]⟩
abbrev S100000x128 : Shape := ⟨2, ![100000, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S500000x1, .i32⟩
  | .hbm, ⟨2, _⟩ => ⟨S1000000x2, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S_, .i32⟩
  | .hbm, ⟨16, _⟩ => ⟨S500000x1, .i32⟩
  | .hbm, ⟨17, _⟩ => ⟨S500000x1, .i1⟩
  | .hbm, ⟨18, _⟩ => ⟨S_, .i32⟩
  | .hbm, ⟨19, _⟩ => ⟨S500000x1, .i32⟩
  | .hbm, ⟨20, _⟩ => ⟨S500000x1, .i32⟩
  | .hbm, ⟨21, _⟩ => ⟨S500000x1, .i32⟩
  | .hbm, ⟨22, _⟩ => ⟨S500000x1x1, .i32⟩
  | .hbm, ⟨23, _⟩ => ⟨S500000x1x64, .f32⟩
  | .hbm, ⟨24, _⟩ => ⟨S500000x64, .f32⟩
  | .hbm, ⟨25, _⟩ => ⟨S500000x64, .f32⟩
  | .hbm, ⟨26, _⟩ => ⟨S1x64, .f32⟩
  | .hbm, ⟨27, _⟩ => ⟨S500000x64, .f32⟩
  | .hbm, ⟨28, _⟩ => ⟨S500000x64, .f32⟩
  | .hbm, ⟨29, _⟩ => ⟨S_, .f32⟩
  | .hbm, ⟨30, _⟩ => ⟨S500000x64, .f32⟩
  | .hbm, ⟨31, _⟩ => ⟨S500000x64, .f32⟩
  | .hbm, ⟨32, _⟩ => ⟨S500000x64, .f32⟩
  | .hbm, ⟨33, _⟩ => ⟨S1x64, .f32⟩
  | .hbm, ⟨34, _⟩ => ⟨S500000x64, .f32⟩
  | .hbm, ⟨35, _⟩ => ⟨S500000x64, .f32⟩
  | .hbm, ⟨36, _⟩ => ⟨S500000, .i32⟩
  | .hbm, ⟨37, _⟩ => ⟨S_, .i32⟩
  | .hbm, ⟨38, _⟩ => ⟨S1000000x2, .i32⟩
  | .hbm, ⟨39, _⟩ => ⟨S1000000x2, .i1⟩
  | .hbm, ⟨40, _⟩ => ⟨S_, .i32⟩
  | .hbm, ⟨41, _⟩ => ⟨S1000000x2, .i32⟩
  | .hbm, ⟨42, _⟩ => ⟨S1000000x2, .i32⟩
  | .hbm, ⟨43, _⟩ => ⟨S1000000x2, .i32⟩
  | .hbm, ⟨44, _⟩ => ⟨S1000000x2x1, .i32⟩
  | .hbm, ⟨45, _⟩ => ⟨S1000000x2x64, .f32⟩
  | .hbm, ⟨46, _⟩ => ⟨S1000000x128, .f32⟩
  | .hbm, ⟨47, _⟩ => ⟨S1000000x128, .f32⟩
  | .hbm, ⟨48, _⟩ => ⟨S1x128, .f32⟩
  | .hbm, ⟨49, _⟩ => ⟨S1000000x128, .f32⟩
  | .hbm, ⟨50, _⟩ => ⟨S1000000x128, .f32⟩
  | .hbm, ⟨51, _⟩ => ⟨S_, .f32⟩
  | .hbm, ⟨52, _⟩ => ⟨S1000000x128, .f32⟩
  | .hbm, ⟨53, _⟩ => ⟨S1000000x128, .f32⟩
  | .hbm, ⟨54, _⟩ => ⟨S1000000x128, .f32⟩
  | .hbm, ⟨55, _⟩ => ⟨S1x128, .f32⟩
  | .hbm, ⟨56, _⟩ => ⟨S1000000x128, .f32⟩
  | .hbm, ⟨57, _⟩ => ⟨S1000000x128, .f32⟩
  | .hbm, ⟨58, _⟩ => ⟨S2000000x64, .f32⟩
  | .hbm, ⟨59, _⟩ => ⟨S2000000, .i32⟩
  | .hbm, ⟨60, _⟩ => ⟨S_, .f32⟩
  | .hbm, ⟨61, _⟩ => ⟨S100000x64, .f32⟩
  | .hbm, ⟨62, _⟩ => ⟨S500000x1, .i32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S2000000x1, .i32⟩
  | .hbm, ⟨67, _⟩ => ⟨S100000x64, .f32⟩
  | .hbm, ⟨68, _⟩ => ⟨S100000x64, .f32⟩
  | .hbm, ⟨69, _⟩ => ⟨S100000x128, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call0_cst : Ref sig .tc := ⟨.hbm, 29, rfl⟩
abbrev main_call0_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_cst : Ref sig .tc := ⟨.hbm, 51, rfl⟩
abbrev main_call1_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call2_cst : Ref sig .tc := ⟨.hbm, 74, rfl⟩
abbrev main_call2_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩

abbrev nD : Nat := 1
abbrev τ : Topo := Topo.v7x

variable {F : FTy → Type} [FloatOps F]

class Facts₀ : Prop where
  bcast_S_S500000x1 : S_.BroadcastsInDim S500000x1 (![] : Fin 0 → Fin S500000x1.rank)
  bcast_S500000x1_S500000x1x1_0_1 : S500000x1.BroadcastsInDim S500000x1x1 (![0, 1] : Fin 2 → Fin S500000x1x1.rank)
  shapeCasts_S500000x1x64_S500000x64 : S500000x1x64.ShapeCasts S500000x64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  shapeCasts_S500000x1_S500000 : S500000x1.ShapeCasts S500000
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x64_S1000000x128 : S1000000x2x64.ShapeCasts S1000000x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  shapeCasts_S1000000x128_S2000000x64 : S1000000x128.ShapeCasts S2000000x64
  shapeCasts_S1000000x2_S2000000 : S1000000x2.ShapeCasts S2000000
  bcast_S_S100000x64 : S_.BroadcastsInDim S100000x64 (![] : Fin 0 → Fin S100000x64.rank)
  bcast_S500000_S500000x1_0 : S500000.BroadcastsInDim S500000x1 (![0] : Fin 1 → Fin S500000x1.rank)
  bcast_S2000000_S2000000x1_0 : S2000000.BroadcastsInDim S2000000x1 (![0] : Fin 1 → Fin S2000000x1.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S500000x1x1_S500000x1x64_2_0_n_n_0_2_164_wf : GatherDims.WF S100000x64 S500000x1x1 S500000x1x64 [2] [0] [] [0] [] 2 ![1, 64]
  dot_S500000x64_S64x64_S500000x64_1_0_0_1_n_n_wf : DotDims.WF S500000x64 S64x64 S500000x64 [1] [0] [0] [1] [] []
  gather_S100000x64_S1000000x2x1_S1000000x2x64_2_0_n_n_0_2_164_wf : GatherDims.WF S100000x64 S1000000x2x1 S1000000x2x64 [2] [0] [] [0] [] 2 ![1, 64]
  dot_S1000000x128_S128x128_S1000000x128_1_0_0_1_n_n_wf : DotDims.WF S1000000x128 S128x128 S1000000x128 [1] [0] [0] [1] [] []
  scatter_S100000x64_S500000x1_S500000x64_1_0_0_1_wf : ScatterDims.WF S100000x64 S500000x1 S500000x64 [1] [0] [0] 1
  scatter_S100000x64_S2000000x1_S2000000x64_1_0_0_1_wf : ScatterDims.WF S100000x64 S2000000x1 S2000000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S500000x1x1_S500000x1x64_2_0_n_n_0_2_164 : GatherDims S100000x64 S500000x1x1 S500000x1x64 where
  offsetDims := [2]
  collapsedSliceDims := [0]
  operandBatchingDims := []
  startIndicesBatchingDims := []
  startIndexMap := [0]
  indexVectorDim := 2
  sliceSizes := ![1, 64]
  wf := gather_S100000x64_S500000x1x1_S500000x1x64_2_0_n_n_0_2_164_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def gather_S100000x64_S1000000x2x1_S1000000x2x64_2_0_n_n_0_2_164 : GatherDims S100000x64 S1000000x2x1 S1000000x2x64 where
  offsetDims := [2]
  collapsedSliceDims := [0]
  operandBatchingDims := []
  startIndicesBatchingDims := []
  startIndexMap := [0]
  indexVectorDim := 2
  sliceSizes := ![1, 64]
  wf := gather_S100000x64_S1000000x2x1_S1000000x2x64_2_0_n_n_0_2_164_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.Spec.lean ====
/-
  The network both programs compute, one row at a time, on the extended reals.

  A message perceptron sends a row x to relu(x·W₁ + b₁)·W₂ + b₂. The unary relation's rows are rows of the node table
  selected by an index word (a negative word wraps by the table's height, and the row is then clamped into the table);
  the binary relation's rows are two such rows side by side. The messages are summed into the nodes they came from, and
  the update perceptron reads a node's own row and its summed messages: relu(x·Wₐ + a·W_b + b₁)·W₂ + b₂, where Wₐ and
  W_b are the top and bottom halves of one weight matrix, so that x·Wₐ + a·W_b is the product of the joined row (x, a)
  with the whole matrix.
-/
import proofs.«114375_j21973052686562_1_alg».proof.Proof.LibDenseRows

noncomputable section

open scoped BigOperators

namespace Cert.Spec

open Idealize.ShloMosaic Idealize.ShloMosaic.ValueIdx Cert.LibDenseRows

/-- A two-layer perceptron on one row: x ↦ relu(x·W₁ + b₁)·W₂ + b₂. -/
def mlpRow {K H N : ℕ} (x : Fin K → EReal) (W1 : Fin K → Fin H → EReal) (b1 : Fin H → EReal)
    (W2 : Fin H → Fin N → EReal) (b2 : Fin N → EReal) : Fin N → EReal :=
  dense (relu (dense x W1 b1)) W2 b2

/-- The perceptron on every row of an [R, K] array: entry (r, n) is the perceptron of row r at n. -/
def mlpRowsF {R K H N : ℕ} (X : (Sh2 R K).Idx → EReal) (W1 : (Sh2 K H).Idx → EReal) (b1 : Fin H → EReal)
    (W2 : (Sh2 H N).Idx → EReal) (b2 : Fin N → EReal) : (Sh2 R N).Idx → EReal :=
  fun i => mlpRow (fun k => X (ix2 (i 0 : Fin R) k)) (fun k h => W1 (ix2 k h)) b1 (fun h n => W2 (ix2 h n)) b2 (i 1 : Fin N)

/-- The update perceptron on one row: (x, a) ↦ relu(x·Wₐ + a·W_b + b₁)·W₂ + b₂. -/
def updRow {K H N : ℕ} (x a : Fin K → EReal) (Wa Wb : Fin K → Fin H → EReal) (b1 : Fin H → EReal)
    (W2 : Fin H → Fin N → EReal) (b2 : Fin N → EReal) : Fin N → EReal :=
  dense (relu (fun h => ((∑ k, x k * Wa k h) + (∑ k, a k * Wb k h)) + b1 h)) W2 b2

/-- The update perceptron on every row of two [R, K] arrays. -/
def updRowsF {R K H N : ℕ} (X A : (Sh2 R K).Idx → EReal) (Wa Wb : (Sh2 K H).Idx → EReal) (b1 : Fin H → EReal)
    (W2 : (Sh2 H N).Idx → EReal) (b2 : Fin N → EReal) : (Sh2 R N).Idx → EReal :=
  fun i => updRow (fun k => X (ix2 (i 0 : Fin R) k)) (fun k => A (ix2 (i 0 : Fin R) k)) (fun k h => Wa (ix2 k h))
    (fun k h => Wb (ix2 k h)) b1 (fun h n => W2 (ix2 h n)) b2 (i 1 : Fin N)

/-- A vector read by its coordinate. -/
def vec {N : ℕ} (b : (Sh1 N).Idx → EReal) : Fin N → EReal := fun n => b (ix1 n)

/-- The top half (rows 0 … 63) of a [128, 64] matrix. -/
def topHalf (W : (Sh2 128 64).Idx → EReal) : (Sh2 64 64).Idx → EReal :=
  fun i => W (ix2 (⟨(i 0).val, Nat.lt_of_lt_of_le (idx2_lt0 i) (by decide)⟩ : Fin 128) (i 1 : Fin 64))

/-- The bottom half (rows 64 … 127) of a [128, 64] matrix. -/
def botHalf (W : (Sh2 128 64).Idx → EReal) : (Sh2 64 64).Idx → EReal :=
  fun i => W (ix2 (⟨64 + (i 0).val, by have := idx2_lt0 i; omega⟩ : Fin 128) (i 1 : Fin 64))

/-- An index word as the gather uses it: a negative word has the table's height, 100000, added. -/
def wrapIdx (w : BitVec 32) : BitVec 32 := Scalar.select (IntOp.cmpi .slt w 0#32) (IntOp.addi w 100000#32) w

/-- The table row an index word selects: the wrapped word read signed and clamped into [0, 99999]. -/
def rowOf (w : BitVec 32) : Fin 100000 := ⟨min (wrapIdx w).toInt.toNat (100000 - 1), by omega⟩

/-- The unary relation's gathered rows: row e is the table's row selected by the e-th index word. -/
def gatherRows1 (x0 : (Sh2 100000 64).Idx → EReal) (x1 : (Sh2 500000 1).Idx → BitVec 32) : (Sh2 500000 64).Idx → EReal :=
  fun i => x0 (ix2 (rowOf (x1 (ix2 (i 0 : Fin 500000) (0 : Fin 1)))) (i 1 : Fin 64))

/-- The whole layer. The binary relation's gathered rows g2 and the summation of the messages into the nodes agg are
    parameters: the two programs spell them with the same operations, so they are compared as wholes. -/
def out (g2 : (Sh2 1000000 128).Idx → EReal)
    (agg : ((Sh2 500000 64).Idx → EReal) → ((Sh2 1000000 128).Idx → EReal) → (Sh2 100000 64).Idx → EReal)
    (x0 : (Sh2 100000 64).Idx → EReal) (x1 : (Sh2 500000 1).Idx → BitVec 32)
    (x3 : (Sh2 64 64).Idx → EReal) (x4 : (Sh1 64).Idx → EReal) (x5 : (Sh2 64 64).Idx → EReal) (x6 : (Sh1 64).Idx → EReal)
    (x7 : (Sh2 128 128).Idx → EReal) (x8 : (Sh1 128).Idx → EReal) (x9 : (Sh2 128 128).Idx → EReal) (x10 : (Sh1 128).Idx → EReal)
    (x11 : (Sh2 128 64).Idx → EReal) (x12 : (Sh1 64).Idx → EReal) (x13 : (Sh2 64 64).Idx → EReal) (x14 : (Sh1 64).Idx → EReal) :
    (Sh2 100000 64).Idx → EReal :=
  updRowsF x0
    (agg (mlpRowsF (gatherRows1 x0 x1) x3 (vec x4) x5 (vec x6)) (mlpRowsF g2 x7 (vec x8) x9 (vec x10)))
    (topHalf x11) (botHalf x11) (vec x12) x13 (vec x14)

/-- A sum over 128 coordinates is the sum over the first 64 plus the sum over the last 64. -/
theorem sum_split (f : Fin 128 → EReal) :
    ∑ k, f k = (∑ k : Fin 64, f ⟨k.val, by omega⟩) + ∑ k : Fin 64, f ⟨64 + k.val, by omega⟩ :=
  Fin.sum_univ_add (a := 64) (b := 64) f

end Cert.Spec

end
-- ==== Proof.LibScatterGather.lean ====
/-
  ROW GATHERS AND ROW SCATTER-ADDS READ AT AN INDEX, with the words, literals and sums around them.

  A gather of whole rows of an [N, C] table at M start indices (a column [M, 1] of words) returns, at (e, h), the table's
  entry (row, h), where row is the e-th start index read as a signed integer and clamped into [0, N - 1].
  A scatter-add of M rows (an [M, C] array) into an [N, C] operand at M start indices adds, at (n, h), the entries (e, h)
  of every update row e whose start index, read as a signed integer and NOT clamped, is n; an update that lands outside
  the operand is dropped.  The vector form scatters M scalars into an [N] operand.
  Around them: a 32-bit word below 2^31 reads the same signed and unsigned; a product-plus-sum of words that stays
  below 2^32 does not wrap; the pair (a, b) with b < 3 is recovered from 3a + b; the float words of one and zero and
  the conversion of a one-bit word; and a sum of terms masked by an indicator is the sum over the smaller set.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

/-! ## (a) A gather of rows, read at an index -/

/-- The row gather's dimension numbers for a table [N, C], start indices [M, 1] and a result [M, C]. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather with those dimension numbers, read at (e, h). -/
theorem rowGather_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (h : Fin C) :
    Host.gather (rowGather N C M wf) x idx (ix2 e h)
      = x (ix2 ⟨min (idx (ix2 e (0 : Fin 1))).toInt.toNat (N - 1), by omega⟩ h) := by
  unfold Host.gather
  congr 1
  funext a
  refine Fin.ext ?_
  match a with
  | ⟨0, _⟩ =>
    show (rowGather N C M wf).start (ix2 e h) idx 0 + (rowGather N C M wf).batchCoord (ix2 e h) 0
      + (rowGather N C M wf).offCoord (ix2 e h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e h) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C M wf).start (ix2 e h) idx 1 + (rowGather N C M wf).batchCoord (ix2 e h) 1
      + (rowGather N C M wf).offCoord (ix2 e h) 1 = h.val
    have h1 : (1 : Fin 2) ∉ (rowGather N C M wf).startIndexMap := fun hm =>
      absurd (congrArg Fin.val (List.mem_singleton.mp hm)) Nat.one_ne_zero
    have h2 : (1 : Fin 2) ∈ (rowGather N C M wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- THE ROW GATHER AT (e, h): the table's entry (row, h), the row being the e-th start index read signed and clamped
    into [0, N - 1]. The record's lists are hypotheses, so that a program's record is an instance by seven rfl's. -/
theorem gather_row_apply {α : Type} {N C M w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (h : Fin C) :
    Host.gather d x idx (ix2 e h)
      = x (ix2 ⟨min (idx (ix2 e (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather_apply hN wf x idx e h

/-- The same when the e-th start index, a 32-bit word, is below N (and N ≤ 2^31): the row is the word's value. -/
theorem gather_row_apply_of_lt {α : Type} {N C M : Nat} (hN : N ≤ 2 ^ 31)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ 32) (e : Fin M) (h : Fin C)
    (hlt : (idx (ix2 e (0 : Fin 1))).toNat < N) :
    Host.gather d x idx (ix2 e h) = x (ix2 ⟨(idx (ix2 e (0 : Fin 1))).toNat, hlt⟩ h) := by
  have hpos : 0 < N := by omega
  have key : min (idx (ix2 e (0 : Fin 1))).toInt.toNat (N - 1) = (idx (ix2 e (0 : Fin 1))).toNat := by
    rw [BitVec.toInt_eq_toNat_of_lt (by omega), Int.toNat_natCast]
    omega
  have hf : (⟨min (idx (ix2 e (0 : Fin 1))).toInt.toNat (N - 1), by omega⟩ : Fin N)
      = ⟨(idx (ix2 e (0 : Fin 1))).toNat, hlt⟩ := Fin.ext key
  rw [gather_row_apply hpos d hod hcd hob hsb hsm hiv hss, hf]

/-! ## (b) A scatter-add of rows, read at an index -/

/-- An update lands at operand index i exactly when, on every axis, its start plus its window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

/-- The row scatter's dimension numbers for an operand [N, C], start indices [M, 1] and updates [M, C]. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (e, c) of a row scatter lands at (n, h) exactly when row e's start index, read signed, is n and c = h. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

/-- The row scatter-add with those dimension numbers, read at (n, h). -/
theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

/-- THE ROW SCATTER-ADD AT (n, h): the operand's entry plus the entries (e, h) of the update rows e whose start index,
    read signed and not clamped, is n. -/
theorem hostScatterAdd_row_apply {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

/-- The same for the program's operation at the exact instance (whatever the float format). -/
theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) :=
  hostScatterAdd_row_apply d huw hiw hsd hiv x idx upd n h

/-! ## (c) A scatter-add of scalars into a vector, read at an index -/

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scalar scatter's dimension numbers for an operand [N], start indices [M, 1] and updates [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e of a scalar scatter lands at n exactly when its start index, read signed, is n. -/
theorem vecScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  rw [resultIdx?_eq_some_iff]
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl)]
    have hsi : (vecScatter N M wf).siIdx (ix1 e) ⟨List.idxOf (0 : Fin 1) (vecScatter N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N M wf).window (ix1 e) 0 = 0 := by
    unfold ScatterDims.window
    rw [dif_neg]
    intro hm
    have := (List.mem_filter.mp hm).2
    simp at this
  constructor
  · intro H
    have H0 : (vecScatter N M wf).start (ix1 e) idx 0 + ((vecScatter N M wf).window (ix1 e) 0 : Int)
        = (n.val : Int) := H 0
    rw [hs0, hw0] at H0
    simpa using H0
  · intro H a
    match a with
    | ⟨0, _⟩ =>
      show (vecScatter N M wf).start (ix1 e) idx 0 + ((vecScatter N M wf).window (ix1 e) 0 : Int) = (n.val : Int)
      rw [hs0, hw0, H]; simp

/-- The scalar scatter-add with those dimension numbers, read at n. -/
theorem vecScatter_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatter N M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_lands]

/-- THE SCALAR SCATTER-ADD AT n: the operand's entry plus the updates e whose start index, read signed and not
    clamped, is n. -/
theorem hostScatterAdd_vec_apply {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ e ∈ Finset.univ.filter (fun e : Fin M => (idx (ix2 e (0 : Fin 1))).toInt = (n.val : Int)),
          upd (ix1 e) := by
  obtain ⟨uw, iw, sd, iv, wf⟩ := d
  simp only at huw hiw hsd hiv
  subst huw hiw hsd hiv
  exact vecScatter_apply wf x idx upd n

/-- The same for the program's operation at the exact instance. -/
theorem scatterAdd_vec_apply {φ : FTy} {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e ∈ Finset.univ.filter (fun e : Fin M => (idx (ix2 e (0 : Fin 1))).toInt = (n.val : Int)),
          upd (ix1 e) :=
  hostScatterAdd_vec_apply d huw hiw hsd hiv x idx upd n

/-- When every start index is below 2^31, "read signed it is n" is "its value is n". -/
theorem filter_toInt_eq {M : Nat} (I : Fin M → BitVec 32) (hI : ∀ e, (I e).toNat < 2 ^ 31) (n : Nat) :
    Finset.univ.filter (fun e : Fin M => (I e).toInt = (n : Int))
      = Finset.univ.filter (fun e : Fin M => (I e).toNat = n) := by
  refine Finset.filter_congr fun e _ => ?_
  rw [BitVec.toInt_eq_toNat_of_lt (by have := hI e; omega)]
  exact Int.natCast_inj

/-! ## (d) Words -/

/-- A 32-bit word below 2^31 reads the same signed and unsigned. -/
theorem toInt_eq_toNat (w : BitVec 32) (h : w.toNat < 2 ^ 31) : w.toInt = (w.toNat : Int) :=
  BitVec.toInt_eq_toNat_of_lt (by omega)

/-- The word of a natural below 2^32 has that value. -/
theorem toNat_ofNat_lt (k : Nat) (h : k < 2 ^ 32) : (BitVec.ofNat 32 k).toNat = k := by
  rw [BitVec.toNat_ofNat]; exact Nat.mod_eq_of_lt h

/-- A product plus a sum of words that stays below 2^32 does not wrap. -/
theorem toNat_mul_add (a c b : BitVec 32) (h : a.toNat * c.toNat + b.toNat < 2 ^ 32) :
    (a * c + b).toNat = a.toNat * c.toNat + b.toNat := by
  have h1 : a.toNat * c.toNat < 2 ^ 32 := Nat.lt_of_le_of_lt (Nat.le_add_right _ _) h
  rw [BitVec.toNat_add, BitVec.toNat_mul, Nat.mod_eq_of_lt h1, Nat.mod_eq_of_lt h]

/-- The fused index 3a + b as a word: no wrap while 3a + b < 2^32. -/
theorem toNat_mul3_add (a b : BitVec 32) (h : 3 * a.toNat + b.toNat < 2 ^ 32) :
    (a * 3#32 + b).toNat = 3 * a.toNat + b.toNat := by
  have h3 : (3#32 : BitVec 32).toNat = 3 := by decide
  rw [toNat_mul_add a 3#32 b (by rw [h3]; omega), h3]; omega

/-- The same through the integer operations' names. -/
theorem toNat_muli3_addi (a b : BitVec 32) (h : 3 * a.toNat + b.toNat < 2 ^ 32) :
    (IntOp.addi (IntOp.muli a 3#32) b).toNat = 3 * a.toNat + b.toNat :=
  toNat_mul3_add a b h

/-- The pair (a, b) with b < 3 is recovered from 3a + b. -/
theorem fused3_inj {a a' b b' : Nat} (hb : b < 3) (hb' : b' < 3) : 3 * a + b = 3 * a' + b' ↔ a = a' ∧ b = b' := by
  omega

/-- Its quotient by 3 is a. -/
theorem fused3_div {a b : Nat} (hb : b < 3) : (3 * a + b) / 3 = a := by
  omega

/-- Its remainder by 3 is b. -/
theorem fused3_mod {a b : Nat} (hb : b < 3) : (3 * a + b) % 3 = b := by
  omega

/-! ## (e) Literals and one-bit conversions at the exact instance -/

/-- The f32 word 0x3F800000 is one. -/
theorem ofBits_one_f32 : Ideal.ofBits .f32 0x3F800000#32 = (1 : EReal) := Ideal.ofBits_one_f32

/-- The f32 word 0 is zero. -/
theorem ofBits_zero_f32 : Ideal.ofBits .f32 0#32 = (0 : EReal) := Ideal.ofBits_zero_f32

/-- A one-bit word is 0 or 1. -/
theorem bit_cases (b : BitVec 1) : b = 0#1 ∨ b = 1#1 := by
  revert b; decide

/-- A one-bit word converted unsigned is one when the bit is set and zero when it is not. -/
theorem uitofp_bit {φ : FTy} (b : BitVec 1) : (FloatOps.uitofp φ b : Ideal φ) = if b = 1#1 then (1 : EReal) else 0 := by
  show (((b.toNat : ℝ)) : EReal) = _
  rcases bit_cases b with rfl | rfl
  · rw [if_neg (by decide)]; simp
  · rw [if_pos rfl]; simp

/-- The set bit converts to one. -/
theorem uitofp_bit_one {φ : FTy} : (FloatOps.uitofp φ (1#1 : BitVec 1) : Ideal φ) = (1 : EReal) := by
  rw [uitofp_bit, if_pos rfl]

/-- The clear bit converts to zero. -/
theorem uitofp_bit_zero {φ : FTy} : (FloatOps.uitofp φ (0#1 : BitVec 1) : Ideal φ) = (0 : EReal) := by
  rw [uitofp_bit, if_neg (by decide)]

/-- A one-bit word widened to 32 bits and converted signed: one when the bit is set, zero when it is not. -/
theorem sitofp_setWidth_bit {φ : FTy} (b : BitVec 1) :
    (FloatOps.sitofp φ (b.setWidth 32) : Ideal φ) = if b = 1#1 then (1 : EReal) else 0 := by
  show ((((b.setWidth 32).toInt : ℝ)) : EReal) = _
  rcases bit_cases b with rfl | rfl
  · rw [if_neg (by decide), show ((0#1 : BitVec 1).setWidth 32).toInt = 0 by decide]; simp
  · rw [if_pos rfl, show ((1#1 : BitVec 1).setWidth 32).toInt = 1 by decide]; simp

/-! ## (f) Sums -/

/-- A filtered sum is the sum of the terms switched by the condition. -/
theorem sum_filter_eq_ite {ι : Type*} (S : Finset ι) (p : ι → Prop) [DecidablePred p] (f : ι → EReal) :
    ∑ e ∈ S.filter p, f e = ∑ e ∈ S, (if p e then f e else 0) :=
  Finset.sum_filter p f

/-- A term times an indicator is the term or zero (no finiteness needed: x · 1 = x and x · 0 = 0 at ±∞ too). -/
theorem mul_ite_one_zero (x : EReal) (c : Prop) [Decidable c] : x * (if c then (1 : EReal) else 0) = if c then x else 0 := by
  split_ifs
  · exact mul_one x
  · exact mul_zero x

/-- The same with the indicator on the left. -/
theorem ite_one_zero_mul (x : EReal) (c : Prop) [Decidable c] : (if c then (1 : EReal) else 0) * x = if c then x else 0 := by
  split_ifs
  · exact one_mul x
  · exact zero_mul x

/-- A filtered sum of terms each masked by an indicator is the sum over the doubly filtered set. -/
theorem sum_filter_mul_ite {ι : Type*} (S : Finset ι) (p q : ι → Prop) [DecidablePred p] [DecidablePred q] (f : ι → EReal) :
    ∑ e ∈ S.filter p, f e * (if q e then (1 : EReal) else 0) = ∑ e ∈ S.filter (fun e => p e ∧ q e), f e := by
  rw [← Finset.filter_filter, Finset.sum_filter q f]
  exact Finset.sum_congr rfl fun e _ => mul_ite_one_zero (f e) (q e)

/-- The same with the indicator on the left. -/
theorem sum_filter_ite_mul {ι : Type*} (S : Finset ι) (p q : ι → Prop) [DecidablePred p] [DecidablePred q] (f : ι → EReal) :
    ∑ e ∈ S.filter p, (if q e then (1 : EReal) else 0) * f e = ∑ e ∈ S.filter (fun e => p e ∧ q e), f e := by
  rw [← Finset.filter_filter, Finset.sum_filter q f]
  exact Finset.sum_congr rfl fun e _ => ite_one_zero_mul (f e) (q e)

/-- The masked scatter's form: over the edges into n, a term masked by "the relation is r" sums over the edges of
    relation r into n. -/
theorem sum_filter_eq_mul_ite_eq {ι κ ρ : Type*} [Fintype ι] [DecidableEq κ] [DecidableEq ρ] (D : ι → κ) (R : ι → ρ)
    (n : κ) (r : ρ) (f : ι → EReal) :
    ∑ e ∈ Finset.univ.filter (fun e => D e = n), f e * (if R e = r then (1 : EReal) else 0)
      = ∑ e ∈ Finset.univ.filter (fun e => D e = n ∧ R e = r), f e :=
  sum_filter_mul_ite Finset.univ (fun e => D e = n) (fun e => R e = r) f

/-- A filtered sum of indicators counts the doubly filtered set (each member weighing one). -/
theorem sum_filter_ite_one {ι : Type*} (S : Finset ι) (p q : ι → Prop) [DecidablePred p] [DecidablePred q] :
    ∑ e ∈ S.filter p, (if q e then (1 : EReal) else 0) = ∑ _e ∈ S.filter (fun e => p e ∧ q e), (1 : EReal) := by
  rw [← Finset.filter_filter, Finset.sum_filter q (fun _ => (1 : EReal))]

end Cert.LibSG

end
-- ==== Proof.RegionValue0.lean ====
/-
  The first message kernel's output array after the call, at the extended reals. The kernel runs over 50 blocks of
  10000 rows. At every block it reads the block's rows x, the first layer W₁ and its bias row b₁, the second layer W₂
  and its bias row b₂, and writes relu(x·W₁ + b₁)·W₂ + b₂ for every row of the block: a block product into a zero
  accumulator is the plain sum over the contracted coordinate, the change of float format changes no entry, and a
  bias row broadcast down the rows reads the bias at the column. Row p of block t is row t·10000 + p of the array,
  the weights and biases are read whole at every block, and the 50 blocks cover the 500000 rows, so the array ends
  holding the perceptron of every row of the input array.
-/
import proofs.«114375_j21973052686562_1_alg».proof.Proof.Gen.KernelIdeal.Frame
import proofs.«114375_j21973052686562_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegionValue0

open Cert.KernelIdeal Cert.KernelIdeal.Gen Cert.LibDenseRows

variable (V : (c : Dev nD) → (b : Ref sig .tc) → Buf (Elt Ideal) ((c : Thread nD τ).loc b))

theorem dot_eq : dot_S10000x64_S64x64_S10000x64_1_0_0_1_n_n = DotDims.plain 10000 64 64 := rfl

theorem pay_eq (x0 : Vec Ideal S10000x64 .f32) (x1 : Vec Ideal S64x64 .f32) (x2 : Vec Ideal S1x64 .f32)
    (x3 : Vec Ideal S64x64 .f32) (x4 : Vec Ideal S1x64 .f32) :
    k0_pay1 (F := Ideal) x0 x1 x2 x3 x4
      = Spec.mlpRowsF x0 x1 (fun h => x2 (ix2 (0 : Fin 1) h)) x3 (fun n => x4 (ix2 (0 : Fin 1) n)) := by
  funext j
  obtain ⟨p, q, rfl⟩ : ∃ (p : Fin 10000) (q : Fin 64), j = ix2 p q := ⟨j 0, j 1, eq_ix2 j⟩
  unfold k0_pay1
  simp only [shapeCast_self]
  rw [addf_apply, dot_eq, matmul_plain_zero_apply, broadcastTo_1b_ab_apply]
  unfold Spec.mlpRowsF Spec.mlpRow dense
  refine congrArg₂ (· + ·) (Finset.sum_congr rfl fun k _ => congrArg₂ (· * ·) ?_ rfl) rfl
  rw [truncf_apply, maximumf_apply, addf_apply, matmul_plain_zero_apply, broadcastTo_1b_ab_apply]
  rfl

theorem mlpRowsF_congr {R R' K H N : ℕ} (X : (Sh2 R K).Idx → EReal) (X' : (Sh2 R' K).Idx → EReal)
    (W1 W1' : (Sh2 K H).Idx → EReal) (b1 b1' : Fin H → EReal) (W2 W2' : (Sh2 H N).Idx → EReal) (b2 b2' : Fin N → EReal)
    (j : (Sh2 R N).Idx) (i : (Sh2 R' N).Idx)
    (hX : ∀ k : Fin K, X (ix2 (j 0 : Fin R) k) = X' (ix2 (i 0 : Fin R') k))
    (hW1 : W1 = W1') (hb1 : b1 = b1') (hW2 : W2 = W2') (hb2 : b2 = b2') (hi : (i 1).val = (j 1).val) :
    Spec.mlpRowsF X W1 b1 W2 b2 j = Spec.mlpRowsF X' W1' b1' W2' b2' i := by
  subst hW1 hb1 hW2 hb2
  have h1 : (i 1 : Fin N) = (j 1 : Fin N) := Fin.ext hi
  unfold Spec.mlpRowsF
  rw [h1, funext hX]

theorem hz : (![0, 0] : Fin 2 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem blk0_apply (c : Dev nD) (t : Fin cfg0.N) (p : Fin 10000) (q : Fin 64) (r : Fin 500000)
    (hr : r.val = t.val * 10000 + p.val) :
    (iblk0 V c 0 t : Vec Ideal S10000x64 .f32) (ix2 p q) = (V c main_v7 : S500000x64.Idx → EReal) (ix2 r q) := by
  obtain ⟨e0, e1, -⟩ := idx_facts t
  unfold iblk0
  rw [View.read_apply]
  show V c main_v7 _ = V c main_v7 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * q.val = q.val; rw [e1]; omega

theorem blk1_eq (c : Dev nD) (t : Fin cfg0.N) :
    (iblk0 V c 1 t : Vec Ideal S64x64 .f32) = (V c main_arg3 : S64x64.Idx → EReal) := by
  obtain ⟨-, -, e0, e1, -⟩ := idx_facts t
  funext y
  unfold iblk0
  rw [View.read_apply]
  show V c main_arg3 _ = V c main_arg3 _
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The first bias row's block is the whole one-row array at every point. -/
theorem blk2_apply (c : Dev nD) (t : Fin cfg0.N) (h : Fin 64) :
    (iblk0 V c 2 t : Vec Ideal S1x64 .f32) (ix2 (0 : Fin 1) h) = (V c main_v8 : S1x64.Idx → EReal) (ix2 (0 : Fin 1) h) := by
  obtain ⟨-, -, -, -, e0, e1, -⟩ := idx_facts t
  unfold iblk0
  rw [View.read_apply]
  show V c main_v8 _ = V c main_v8 _
  congr 1
  funext a
  apply Fin.ext
  match a with
  | ⟨0, _⟩ => show win0_2.index t (0 : Fin 2) * 1 + 1 * 0 = 0; rw [e0]
  | ⟨1, _⟩ => show win0_2.index t (1 : Fin 2) * 64 + 1 * h.val = h.val; rw [e1]; omega

/-- The second layer's block is the whole weight array at every point. -/
theorem blk3_eq (c : Dev nD) (t : Fin cfg0.N) :
    (iblk0 V c 3 t : Vec Ideal S64x64 .f32) = (V c main_arg5 : S64x64.Idx → EReal) := by
  obtain ⟨-, -, -, -, -, -, e0, e1, -⟩ := idx_facts t
  funext y
  unfold iblk0
  rw [View.read_apply]
  show V c main_arg5 _ = V c main_arg5 _
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The second bias row's block is the whole one-row array at every point. -/
theorem blk4_apply (c : Dev nD) (t : Fin cfg0.N) (n : Fin 64) :
    (iblk0 V c 4 t : Vec Ideal S1x64 .f32) (ix2 (0 : Fin 1) n) = (V c main_v9 : S1x64.Idx → EReal) (ix2 (0 : Fin 1) n) := by
  obtain ⟨-, -, -, -, -, -, -, -, e0, e1, -⟩ := idx_facts t
  unfold iblk0
  rw [View.read_apply]
  show V c main_v9 _ = V c main_v9 _
  congr 1
  funext a
  apply Fin.ext
  match a with
  | ⟨0, _⟩ => show win0_4.index t (0 : Fin 2) * 1 + 1 * 0 = 0; rw [e0]
  | ⟨1, _⟩ => show win0_4.index t (1 : Fin 2) * 64 + 1 * n.val = n.val; rw [e1]; omega

/-- There are 50 row blocks. -/
theorem t_lt (t : Fin cfg0.N) : t.val < 50 := lt_of_lt_of_eq t.isLt N_0

/-- Row p of the block that point t stages is row t·10000 + p of the array. -/
def rowAt (t : Fin cfg0.N) (p : Fin 10000) : Fin 500000 := ⟨t.val * 10000 + p.val, by have := t_lt t; omega⟩

/-- The output block at point t places its entry (p, q) at (t·10000 + p, q) of the array. -/
theorem blk5_emb (t : Fin cfg0.N) (p : Fin 10000) (q : Fin 64) :
    ((cfg0.win 5).blk t).view.emb (ix2 p q) = ix2 (rowAt t p) q := by
  obtain ⟨-, -, -, -, -, -, -, -, -, -, e0, e1⟩ := idx_facts t
  funext a; apply Fin.ext
  match a with
  | ⟨0, _⟩ => show win0_5.index t (0 : Fin 2) * 10000 + 1 * p.val = t.val * 10000 + p.val; rw [e0]; omega
  | ⟨1, _⟩ => show win0_5.index t (1 : Fin 2) * 64 + 1 * q.val = q.val; rw [e1]; omega

/-- What point t writes back is block t of the perceptron of every row of the input array. -/
theorem flushed_eq (c : Dev nD) (t : Fin cfg0.N) :
    (dat0 (F := Ideal) V c).flushed 5 t = ((cfg0.win 5).blk t).view.read (Elt Ideal)
      (Spec.mlpRowsF (V c main_v7) (V c main_arg3) (fun h => V c main_v8 (ix2 (0 : Fin 1) h))
          (V c main_arg5) (fun n => V c main_v9 (ix2 (0 : Fin 1) n))) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  rw [pay_eq]
  funext j
  obtain ⟨p, q, rfl⟩ : ∃ (p : Fin 10000) (q : Fin 64), j = ix2 p q := ⟨j 0, j 1, eq_ix2 j⟩
  rw [View.read_apply, blk5_emb t p q]
  refine mlpRowsF_congr _ _ _ _ _ _ _ _ _ _ (ix2 p q) (ix2 (rowAt t p) q) (fun k => ?_) (blk1_eq V c t) ?_ (blk3_eq V c t) ?_ rfl
  · exact blk0_apply V c t p k (rowAt t p) rfl
  · funext h; exact blk2_apply V c t h
  · funext n; exact blk4_apply V c t n

/-- An index of the output array is in point t's block iff each coordinate is in the block's range on its axis. -/
theorem mem_blk5 (t : Fin cfg0.N) (i : S500000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v10).slice (win0_5.rect t)).set ↔ _
  rw [View.set_slice_whole, Rect.mem_set_unit]
  exact Iff.rfl

/-- Every entry of the output array lies in some point's block: row r lies in the block of point r / 10000. -/
theorem cover5 (i : S500000x64.Idx) :
    ∃ t : Fin cfg0.N, (cfg0.win 5).flush t = true ∧ i ∈ ((cfg0.win 5).blk t).view.set := by
  have hi0 : (i 0).val < 500000 := (i 0).isLt
  have hi1 : (i 1).val < 64 := (i 1).isLt
  have hN : (i 0).val / 10000 < cfg0.N := lt_of_lt_of_eq (by omega : (i 0).val / 10000 < 50) N_0.symm
  refine ⟨⟨(i 0).val / 10000, hN⟩, flush0_5 _, ?_⟩
  rw [mem_blk5]
  obtain ⟨-, -, -, -, -, -, -, -, -, -, e0, e1⟩ := idx_facts ⟨(i 0).val / 10000, hN⟩
  intro a
  match a with
  | ⟨0, _⟩ =>
    show win0_5.index ⟨(i 0).val / 10000, hN⟩ (0 : Fin 2) * 10000 ≤ (i 0).val ∧ (i 0).val < win0_5.index ⟨(i 0).val / 10000, hN⟩ (0 : Fin 2) * 10000 + 10000
    rw [e0]
    show (i 0).val / 10000 * 10000 ≤ (i 0).val ∧ (i 0).val < (i 0).val / 10000 * 10000 + 10000
    omega
  | ⟨1, _⟩ =>
    show win0_5.index ⟨(i 0).val / 10000, hN⟩ (1 : Fin 2) * 64 ≤ (i 1).val ∧ (i 1).val < win0_5.index ⟨(i 0).val / 10000, hN⟩ (1 : Fin 2) * 64 + 64
    rw [e1]
    omega

/-- After the first message kernel has run over all its 50 row blocks, its output array holds the perceptron of every
    row of its input array. -/
theorem arrAt0 (c : Dev nD) :
    (dat0 (F := Ideal) V c).arrAt 5 cfg0.N
      = Spec.mlpRowsF (V c main_v7) (V c main_arg3) (fun h => V c main_v8 (ix2 (0 : Fin 1) h))
          (V c main_arg5) (fun n => V c main_v9 (ix2 (0 : Fin 1) n)) :=
  (dat0 (F := Ideal) V c).arrAt_eq_of_cover 5 _ (fun t _ => flushed_eq V c t) cover5

end Cert.KernelIdeal.RegionValue0

end
-- ==== Proof.RegionValue1.lean ====
/-
  The second message kernel's output array after the call, at the extended reals. The kernel runs over 125 blocks of
  8000 rows of width 128. At every block it reads the block's rows x, the two weight matrices W₁ and W₂ whole and the two
  bias rows b₁ and b₂ whole, and writes relu(x·W₁ + b₁)·W₂ + b₂ for every row of the block: each block product into a
  zero accumulator is the plain sum over the contracted coordinate, the change of float format changes no entry, and a
  bias row broadcast down the rows reads the bias at the column. Row p of block t is row t·8000 + p of the array, the
  weights and biases are the same at every block, and the 125 blocks cover the 1000000 rows (row r lies in block
  r / 8000), so the array ends holding the perceptron of every row of the input array.
-/
import proofs.«114375_j21973052686562_1_alg».proof.Proof.Gen.KernelIdeal.Frame
import proofs.«114375_j21973052686562_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegionValue1

open Cert.KernelIdeal Cert.KernelIdeal.Gen Cert.LibDenseRows

variable (V : (c : Dev nD) → (b : Ref sig .tc) → Buf (Elt Ideal) ((c : Thread nD τ).loc b))

/-- The kernel's block product contracts the columns of its left operand with the rows of its right operand. -/
theorem dot_eq : dot_S8000x128_S128x128_S8000x128_1_0_0_1_n_n = DotDims.plain 8000 128 128 := rfl

/-- The body's value on a block of 8000 rows is the perceptron of every row of the block. -/
theorem pay_eq (x0 : Vec Ideal S8000x128 .f32) (x1 : Vec Ideal S128x128 .f32) (x2 : Vec Ideal S1x128 .f32)
    (x3 : Vec Ideal S128x128 .f32) (x4 : Vec Ideal S1x128 .f32) :
    k1_pay1 (F := Ideal) x0 x1 x2 x3 x4
      = Spec.mlpRowsF x0 x1 (fun h => x2 (ix2 (0 : Fin 1) h)) x3 (fun n => x4 (ix2 (0 : Fin 1) n)) := by
  funext j
  obtain ⟨p, q, rfl⟩ : ∃ (p : Fin 8000) (q : Fin 128), j = ix2 p q := ⟨j 0, j 1, eq_ix2 j⟩
  unfold k1_pay1
  simp only [shapeCast_self]
  rw [addf_apply, dot_eq, matmul_plain_zero_apply, broadcastTo_1b_ab_apply]
  unfold Spec.mlpRowsF Spec.mlpRow dense
  refine congrArg₂ (· + ·) (Finset.sum_congr rfl fun k _ => congrArg₂ (· * ·) ?_ rfl) rfl
  rw [truncf_apply, maximumf_apply, addf_apply, matmul_plain_zero_apply, broadcastTo_1b_ab_apply]
  rfl

theorem hz : (![0, 0] : Fin 2 → Nat) = fun _ => 0 := funext fun a => by fin_cases a <;> rfl

/-- The windows' block indices at every grid point: the rows' window and the output's sit at block (t, 0), the weights'
    and biases' at (0, 0); there are 125 points. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ t.val ≤ 124 :=
  (by decide +kernel : ∀ t : Fin grid1.N, _)

theorem t_le (t : Fin cfg1.N) : t.val ≤ 124 := (idx_facts t).2.2.2.2.2.2.2.2.2.2.2.2

/-- Row p of the block that point t stages is row t·8000 + p of the array. -/
def rowAt (t : Fin cfg1.N) (p : Fin 8000) : Fin 1000000 := ⟨t.val * 8000 + p.val, by have := t_le t; omega⟩

/-- The rows' block at point t, read at (p, k), is the array at (t·8000 + p, k). -/
theorem blk0_read (c : Dev nD) (t : Fin cfg1.N) (p : Fin 8000) (k : Fin 128) :
    iblk1 V c 0 t (ix2 p k) = V c main_v19 (ix2 (rowAt t p) k) := by
  show V c main_v19 (((cfg1.win 0).blk t).view.emb (ix2 p k)) = _
  refine congrArg _ ?_
  obtain ⟨e0, e1, -⟩ := idx_facts t
  funext a; apply Fin.ext
  match a with
  | ⟨0, _⟩ => show win1_0.index t (0 : Fin 2) * 8000 + 1 * p.val = t.val * 8000 + p.val; omega
  | ⟨1, _⟩ => show win1_0.index t (1 : Fin 2) * 128 + 1 * k.val = k.val; omega

/-- A weight or bias window's block is the whole array at every point. -/
theorem blk1_read (c : Dev nD) (t : Fin cfg1.N) (k : Fin 128) (h : Fin 128) :
    iblk1 V c 1 t (ix2 k h) = V c main_arg7 (ix2 k h) := by
  show V c main_arg7 (((cfg1.win 1).blk t).view.emb (ix2 k h)) = _
  refine congrArg _ ?_
  obtain ⟨-, -, e0, e1, -⟩ := idx_facts t
  funext a; apply Fin.ext
  match a with
  | ⟨0, _⟩ => show win1_1.index t (0 : Fin 2) * 128 + 1 * k.val = k.val; omega
  | ⟨1, _⟩ => show win1_1.index t (1 : Fin 2) * 128 + 1 * h.val = h.val; omega

theorem blk2_read (c : Dev nD) (t : Fin cfg1.N) (h : Fin 128) :
    iblk1 V c 2 t (ix2 (0 : Fin 1) h) = V c main_v20 (ix2 (0 : Fin 1) h) := by
  show V c main_v20 (((cfg1.win 2).blk t).view.emb (ix2 (0 : Fin 1) h)) = _
  refine congrArg _ ?_
  obtain ⟨-, -, -, -, e0, e1, -⟩ := idx_facts t
  funext a; apply Fin.ext
  match a with
  | ⟨0, _⟩ => show win1_2.index t (0 : Fin 2) * 1 + 1 * 0 = 0; omega
  | ⟨1, _⟩ => show win1_2.index t (1 : Fin 2) * 128 + 1 * h.val = h.val; omega

theorem blk3_read (c : Dev nD) (t : Fin cfg1.N) (k : Fin 128) (h : Fin 128) :
    iblk1 V c 3 t (ix2 k h) = V c main_arg9 (ix2 k h) := by
  show V c main_arg9 (((cfg1.win 3).blk t).view.emb (ix2 k h)) = _
  refine congrArg _ ?_
  obtain ⟨-, -, -, -, -, -, e0, e1, -⟩ := idx_facts t
  funext a; apply Fin.ext
  match a with
  | ⟨0, _⟩ => show win1_3.index t (0 : Fin 2) * 128 + 1 * k.val = k.val; omega
  | ⟨1, _⟩ => show win1_3.index t (1 : Fin 2) * 128 + 1 * h.val = h.val; omega

theorem blk4_read (c : Dev nD) (t : Fin cfg1.N) (h : Fin 128) :
    iblk1 V c 4 t (ix2 (0 : Fin 1) h) = V c main_v21 (ix2 (0 : Fin 1) h) := by
  show V c main_v21 (((cfg1.win 4).blk t).view.emb (ix2 (0 : Fin 1) h)) = _
  refine congrArg _ ?_
  obtain ⟨-, -, -, -, -, -, -, -, e0, e1, -⟩ := idx_facts t
  funext a; apply Fin.ext
  match a with
  | ⟨0, _⟩ => show win1_4.index t (0 : Fin 2) * 1 + 1 * 0 = 0; omega
  | ⟨1, _⟩ => show win1_4.index t (1 : Fin 2) * 128 + 1 * h.val = h.val; omega

/-- The output block at point t places its entry (p, q) at (t·8000 + p, q) of the array. -/
theorem blk5_emb (t : Fin cfg1.N) (p : Fin 8000) (q : Fin 128) :
    ((cfg1.win 5).blk t).view.emb (ix2 p q) = ix2 (rowAt t p) q := by
  obtain ⟨-, -, -, -, -, -, -, -, -, -, e0, e1, -⟩ := idx_facts t
  funext a; apply Fin.ext
  match a with
  | ⟨0, _⟩ => show win1_5.index t (0 : Fin 2) * 8000 + 1 * p.val = t.val * 8000 + p.val; omega
  | ⟨1, _⟩ => show win1_5.index t (1 : Fin 2) * 128 + 1 * q.val = q.val; omega

/-- What point t writes back is block t of the perceptron of every row of the input array. -/
theorem flushed_eq (c : Dev nD) (t : Fin cfg1.N) :
    (dat1 (F := Ideal) V c).flushed 5 t
      = ((cfg1.win 5).blk t).view.read (Elt Ideal)
          (Spec.mlpRowsF (V c main_v19) (V c main_arg7) (fun h => V c main_v20 (ix2 (0 : Fin 1) h))
            (V c main_arg9) (fun n => V c main_v21 (ix2 (0 : Fin 1) n))) := by
  show (cfg1.win 5).cut (grid1.coords t) ((dat1 V c).after 5 t) = _
  rw [after1_5]
  unfold out1_5
  rw [View.canon_unit_zero hz]
  simp only [View.ld_unit_zero (S := S8000x128) hz, View.ld_unit_zero (S := S128x128) hz,
    View.ld_unit_zero (S := S1x128) hz]
  rw [pay_eq]
  funext j
  obtain ⟨p, q, rfl⟩ : ∃ (p : Fin 8000) (q : Fin 128), j = ix2 p q := ⟨j 0, j 1, eq_ix2 j⟩
  show Spec.mlpRowsF (iblk1 V c 0 t) (iblk1 V c 1 t) (fun h => iblk1 V c 2 t (ix2 (0 : Fin 1) h)) (iblk1 V c 3 t)
      (fun n => iblk1 V c 4 t (ix2 (0 : Fin 1) n)) (ix2 p q)
    = Spec.mlpRowsF (V c main_v19) (V c main_arg7) (fun h => V c main_v20 (ix2 (0 : Fin 1) h))
        (V c main_arg9) (fun n => V c main_v21 (ix2 (0 : Fin 1) n)) (((cfg1.win 5).blk t).view.emb (ix2 p q))
  rw [blk5_emb]
  unfold Spec.mlpRowsF
  simp only [blk0_read, blk1_read, blk2_read, blk3_read, blk4_read]

/-- An index of the output array is in point t's block iff each coordinate is in the block's range on its axis. -/
theorem mem_blk (t : Fin cfg1.N) (i : S1000000x128.Idx) :
    i ∈ ((cfg1.win 5).blk t).view.set
      ↔ ∀ a : Fin 2, win1_5.index t a * S8000x128.size a ≤ (i a).val
          ∧ (i a).val < win1_5.index t a * S8000x128.size a + S8000x128.size a := by
  show i ∈ ((View.whole main_v22).slice (win1_5.rect t)).set ↔ _
  rw [View.set_slice_whole, Rect.mem_set_unit]
  exact Iff.rfl

/-- Every index of the output array is in some point's block: row r lies in the block of point r / 8000. -/
theorem cover (i : S1000000x128.Idx) :
    ∃ t : Fin cfg1.N, (cfg1.win 5).flush t = true ∧ i ∈ ((cfg1.win 5).blk t).view.set := by
  have hi0 : (i 0).val < 1000000 := (i 0).isLt
  have hi1 : (i 1).val < 128 := (i 1).isLt
  have hN : cfg1.N = 125 := N_1
  obtain ⟨t, ht⟩ : ∃ t : Fin cfg1.N, t.val = (i 0).val / 8000 := ⟨⟨(i 0).val / 8000, by rw [hN]; omega⟩, rfl⟩
  obtain ⟨-, -, -, -, -, -, -, -, -, -, e0, e1, -⟩ := idx_facts t
  refine ⟨t, flush1_5 t, ?_⟩
  rw [mem_blk]
  intro a
  match a with
  | ⟨0, _⟩ =>
    show win1_5.index t (0 : Fin 2) * 8000 ≤ (i 0).val ∧ (i 0).val < win1_5.index t (0 : Fin 2) * 8000 + 8000
    omega
  | ⟨1, _⟩ =>
    show win1_5.index t (1 : Fin 2) * 128 ≤ (i 1).val ∧ (i 1).val < win1_5.index t (1 : Fin 2) * 128 + 128
    omega

/-- After the second message kernel has run over all its 125 row blocks, its output array holds the perceptron of
    every row of its input array. -/
theorem arrAt1 (c : Dev nD) :
    (dat1 (F := Ideal) V c).arrAt 5 cfg1.N
      = Spec.mlpRowsF (V c main_v19) (V c main_arg7) (fun h => V c main_v20 (ix2 (0 : Fin 1) h))
          (V c main_arg9) (fun n => V c main_v21 (ix2 (0 : Fin 1) n)) :=
  (dat1 (F := Ideal) V c).arrAt_eq_of_cover 5 _ (fun t _ => flushed_eq V c t) cover

end Cert.KernelIdeal.RegionValue1

end
-- ==== Proof.RegionValue2.lean ====
/-
  The update kernel's output array after the call, at the extended reals. The kernel runs over 10 blocks of 10000 node
  rows. At every block it reads the block's rows x and the same rows a of the summed messages, the two weight halves
  Wₐ and W_b, the second layer W₂ and the two bias rows, and writes relu(x·Wₐ + a·W_b + b₁)·W₂ + b₂ for every row of the
  block: the two block products into zero accumulators are the plain sums over the contracted coordinate, the change
  of float format changes no entry, and a bias row broadcast down the rows reads the bias at the column. Row p of
  block t is row t·10000 + p of the array, the weights and biases are read whole at every block, and the 10 blocks
  cover the 100000 rows, so the array ends holding the update perceptron of every node's row and summed messages.
-/
import proofs.«114375_j21973052686562_1_alg».proof.Proof.Gen.KernelIdeal.Frame
import proofs.«114375_j21973052686562_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegionValue2

open Cert.KernelIdeal Cert.KernelIdeal.Gen Cert.LibDenseRows

variable (V : (c : Dev nD) → (b : Ref sig .tc) → Buf (Elt Ideal) ((c : Thread nD τ).loc b))

/-- A block product of this kernel into the zero accumulator, read at (a, b). -/
theorem mm_apply (A : FVec Ideal S10000x64 .bf16) (B : FVec Ideal S64x64 .bf16) (a : Fin 10000) (b : Fin 64) :
    matmul dot_S10000x64_S64x64_S10000x64_1_0_0_1_n_n none A B (constant (F := Ideal) S10000x64 .f32 0x00000000#32) (ix2 a b)
      = ∑ c : Fin 64, A (ix2 a c) * B (ix2 c b) :=
  matmul_plain_zero_apply none A B a b

/-- The body's value on a block of 10000 rows is the update perceptron of every row of the block. -/
theorem pay_eq (x0 x1 : Vec Ideal S10000x64 .f32) (x2 x3 : Vec Ideal S64x64 .f32) (x4 : Vec Ideal S1x64 .f32)
    (x5 : Vec Ideal S64x64 .f32) (x6 : Vec Ideal S1x64 .f32) :
    k2_pay1 (F := Ideal) x0 x1 x2 x3 x4 x5 x6
      = Spec.updRowsF x0 x1 x2 x3 (fun h => x4 (ix2 (0 : Fin 1) h)) x5 (fun n => x6 (ix2 (0 : Fin 1) n)) := by
  funext j
  obtain ⟨p, q, rfl⟩ : ∃ (p : Fin 10000) (q : Fin 64), j = ix2 p q := ⟨j 0, j 1, eq_ix2 j⟩
  unfold k2_pay1
  rw [addf_apply, mm_apply, broadcastTo_1b_ab_apply]
  simp only [shapeCast_self, truncf_apply, maximumf_apply, addf_apply, mm_apply, broadcastTo_1b_ab_apply, broadcast_apply]
  rfl

theorem hz : (![0, 0] : Fin 2 → Nat) = fun _ => 0 := funext fun a => by fin_cases a <;> rfl

/-- The windows' block indices at every grid point: the row-blocked windows sit at block (t, 0), the others at (0, 0);
    there are 10 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ t.val ≤ 9 :=
  (by decide +kernel : ∀ t : Fin grid2.N, _)

theorem t_le (t : Fin cfg2.N) : t.val ≤ 9 := (idx_facts t).2.2.2.2.2.2.2.2.2.2.2.2.2.2.2.2

/-- Row p of the block that point t stages is row t·10000 + p of the array. -/
def rowAt (t : Fin cfg2.N) (p : Fin 10000) : Fin 100000 := ⟨t.val * 10000 + p.val, by have := t_le t; omega⟩

/-- The node rows' block at point t, read at (p, k), is the array at (t·10000 + p, k). -/
theorem blk0_read (c : Dev nD) (t : Fin cfg2.N) (p : Fin 10000) (k : Fin 64) :
    iblk2 V c 0 t (ix2 p k) = V c main_arg0 (ix2 (rowAt t p) k) := by
  show V c main_arg0 (((cfg2.win 0).blk t).view.emb (ix2 p k)) = _
  refine congrArg _ ?_
  obtain ⟨e0, e1, -⟩ := idx_facts t
  funext a; apply Fin.ext
  match a with
  | ⟨0, _⟩ => show win2_0.index t (0 : Fin 2) * 10000 + 1 * p.val = t.val * 10000 + p.val; omega
  | ⟨1, _⟩ => show win2_0.index t (1 : Fin 2) * 64 + 1 * k.val = k.val; omega

/-- The summed messages' block at point t, read at (p, k), is the array at (t·10000 + p, k). -/
theorem blk1_read (c : Dev nD) (t : Fin cfg2.N) (p : Fin 10000) (k : Fin 64) :
    iblk2 V c 1 t (ix2 p k) = V c main_v30 (ix2 (rowAt t p) k) := by
  show V c main_v30 (((cfg2.win 1).blk t).view.emb (ix2 p k)) = _
  refine congrArg _ ?_
  obtain ⟨-, -, e0, e1, -⟩ := idx_facts t
  funext a; apply Fin.ext
  match a with
  | ⟨0, _⟩ => show win2_1.index t (0 : Fin 2) * 10000 + 1 * p.val = t.val * 10000 + p.val; omega
  | ⟨1, _⟩ => show win2_1.index t (1 : Fin 2) * 64 + 1 * k.val = k.val; omega

/-- A weight or bias window's block is the whole array at every point. -/
theorem blk2_read (c : Dev nD) (t : Fin cfg2.N) (k : Fin 64) (h : Fin 64) :
    iblk2 V c 2 t (ix2 k h) = V c main_v31 (ix2 k h) := by
  show V c main_v31 (((cfg2.win 2).blk t).view.emb (ix2 k h)) = _
  refine congrArg _ ?_
  obtain ⟨-, -, -, -, e0, e1, -⟩ := idx_facts t
  funext a; apply Fin.ext
  match a with
  | ⟨0, _⟩ => show win2_2.index t (0 : Fin 2) * 64 + 1 * k.val = k.val; omega
  | ⟨1, _⟩ => show win2_2.index t (1 : Fin 2) * 64 + 1 * h.val = h.val; omega

theorem blk3_read (c : Dev nD) (t : Fin cfg2.N) (k : Fin 64) (h : Fin 64) :
    iblk2 V c 3 t (ix2 k h) = V c main_v32 (ix2 k h) := by
  show V c main_v32 (((cfg2.win 3).blk t).view.emb (ix2 k h)) = _
  refine congrArg _ ?_
  obtain ⟨-, -, -, -, -, -, e0, e1, -⟩ := idx_facts t
  funext a; apply Fin.ext
  match a with
  | ⟨0, _⟩ => show win2_3.index t (0 : Fin 2) * 64 + 1 * k.val = k.val; omega
  | ⟨1, _⟩ => show win2_3.index t (1 : Fin 2) * 64 + 1 * h.val = h.val; omega

theorem blk4_read (c : Dev nD) (t : Fin cfg2.N) (h : Fin 64) :
    iblk2 V c 4 t (ix2 (0 : Fin 1) h) = V c main_v33 (ix2 (0 : Fin 1) h) := by
  show V c main_v33 (((cfg2.win 4).blk t).view.emb (ix2 (0 : Fin 1) h)) = _
  refine congrArg _ ?_
  obtain ⟨-, -, -, -, -, -, -, -, e0, e1, -⟩ := idx_facts t
  funext a; apply Fin.ext
  match a with
  | ⟨0, _⟩ => show win2_4.index t (0 : Fin 2) * 1 + 1 * 0 = 0; omega
  | ⟨1, _⟩ => show win2_4.index t (1 : Fin 2) * 64 + 1 * h.val = h.val; omega

theorem blk5_read (c : Dev nD) (t : Fin cfg2.N) (k : Fin 64) (h : Fin 64) :
    iblk2 V c 5 t (ix2 k h) = V c main_arg13 (ix2 k h) := by
  show V c main_arg13 (((cfg2.win 5).blk t).view.emb (ix2 k h)) = _
  refine congrArg _ ?_
  obtain ⟨-, -, -, -, -, -, -, -, -, -, e0, e1, -⟩ := idx_facts t
  funext a; apply Fin.ext
  match a with
  | ⟨0, _⟩ => show win2_5.index t (0 : Fin 2) * 64 + 1 * k.val = k.val; omega
  | ⟨1, _⟩ => show win2_5.index t (1 : Fin 2) * 64 + 1 * h.val = h.val; omega

theorem blk6_read (c : Dev nD) (t : Fin cfg2.N) (h : Fin 64) :
    iblk2 V c 6 t (ix2 (0 : Fin 1) h) = V c main_v34 (ix2 (0 : Fin 1) h) := by
  show V c main_v34 (((cfg2.win 6).blk t).view.emb (ix2 (0 : Fin 1) h)) = _
  refine congrArg _ ?_
  obtain ⟨-, -, -, -, -, -, -, -, -, -, -, -, e0, e1, -⟩ := idx_facts t
  funext a; apply Fin.ext
  match a with
  | ⟨0, _⟩ => show win2_6.index t (0 : Fin 2) * 1 + 1 * 0 = 0; omega
  | ⟨1, _⟩ => show win2_6.index t (1 : Fin 2) * 64 + 1 * h.val = h.val; omega

/-- The output block at point t places its entry (p, q) at (t·10000 + p, q) of the array. -/
theorem blk7_emb (t : Fin cfg2.N) (p : Fin 10000) (q : Fin 64) :
    ((cfg2.win 7).blk t).view.emb (ix2 p q) = ix2 (rowAt t p) q := by
  obtain ⟨-, -, -, -, -, -, -, -, -, -, -, -, -, -, e0, e1, -⟩ := idx_facts t
  funext a; apply Fin.ext
  match a with
  | ⟨0, _⟩ => show win2_7.index t (0 : Fin 2) * 10000 + 1 * p.val = t.val * 10000 + p.val; omega
  | ⟨1, _⟩ => show win2_7.index t (1 : Fin 2) * 64 + 1 * q.val = q.val; omega

/-- The update perceptron of the blocks that point t stages, read at row p of the block, is the update perceptron of the
    arrays read at row t·10000 + p: the row of x and of a is that row of the arrays, and the weights and biases are the
    arrays' own. -/
theorem upd_block (c : Dev nD) (t : Fin cfg2.N) (p : Fin 10000) (q : Fin 64) :
    Spec.updRowsF (iblk2 V c 0 t) (iblk2 V c 1 t) (iblk2 V c 2 t) (iblk2 V c 3 t) (fun h => iblk2 V c 4 t (ix2 (0 : Fin 1) h))
        (iblk2 V c 5 t) (fun n => iblk2 V c 6 t (ix2 (0 : Fin 1) n)) (ix2 p q)
      = Spec.updRowsF (V c main_arg0) (V c main_v30) (V c main_v31) (V c main_v32) (fun h => V c main_v33 (ix2 (0 : Fin 1) h))
          (V c main_arg13) (fun n => V c main_v34 (ix2 (0 : Fin 1) n)) (ix2 (rowAt t p) q) := by
  show Spec.updRow (fun k => iblk2 V c 0 t (ix2 p k)) (fun k => iblk2 V c 1 t (ix2 p k)) (fun k h => iblk2 V c 2 t (ix2 k h))
        (fun k h => iblk2 V c 3 t (ix2 k h)) (fun h => iblk2 V c 4 t (ix2 (0 : Fin 1) h)) (fun h n => iblk2 V c 5 t (ix2 h n))
        (fun n => iblk2 V c 6 t (ix2 (0 : Fin 1) n)) q
      = Spec.updRow (fun k => V c main_arg0 (ix2 (rowAt t p) k)) (fun k => V c main_v30 (ix2 (rowAt t p) k))
        (fun k h => V c main_v31 (ix2 k h)) (fun k h => V c main_v32 (ix2 k h)) (fun h => V c main_v33 (ix2 (0 : Fin 1) h))
        (fun h n => V c main_arg13 (ix2 h n)) (fun n => V c main_v34 (ix2 (0 : Fin 1) n)) q
  simp only [blk0_read, blk1_read, blk2_read, blk3_read, blk4_read, blk5_read, blk6_read]

/-- What point t writes back is block t of the update perceptron of the arrays: the body leaves the perceptron of the
    staged blocks, and row p of those blocks is row t·10000 + p of the arrays, which is where the output block places
    its row p. -/
theorem wb_block (c : Dev nD) (t : Fin cfg2.N) :
    (dat2 (F := Ideal) V c).flushed 7 t
      = ((cfg2.win 7).blk t).view.read (Elt Ideal)
          (Spec.updRowsF (V c main_arg0) (V c main_v30) (V c main_v31) (V c main_v32) (fun h => V c main_v33 (ix2 (0 : Fin 1) h))
            (V c main_arg13) (fun n => V c main_v34 (ix2 (0 : Fin 1) n))) := by
  show (cfg2.win 7).cut (grid2.coords t) ((dat2 (F := Ideal) V c).after 7 t) = _
  rw [after2_7]
  unfold out2_7
  rw [View.canon_unit_zero hz]
  simp only [View.ld_unit_zero (S := S10000x64) hz, View.ld_unit_zero (S := S64x64) hz, View.ld_unit_zero (S := S1x64) hz]
  rw [pay_eq]
  funext j
  obtain ⟨p, q, rfl⟩ : ∃ (p : Fin 10000) (q : Fin 64), j = ix2 p q := ⟨j 0, j 1, eq_ix2 j⟩
  show Spec.updRowsF (iblk2 V c 0 t) (iblk2 V c 1 t) (iblk2 V c 2 t) (iblk2 V c 3 t) (fun h => iblk2 V c 4 t (ix2 (0 : Fin 1) h))
        (iblk2 V c 5 t) (fun n => iblk2 V c 6 t (ix2 (0 : Fin 1) n)) (ix2 p q)
      = Spec.updRowsF (V c main_arg0) (V c main_v30) (V c main_v31) (V c main_v32) (fun h => V c main_v33 (ix2 (0 : Fin 1) h))
          (V c main_arg13) (fun n => V c main_v34 (ix2 (0 : Fin 1) n)) (((cfg2.win 7).blk t).view.emb (ix2 p q))
  rw [blk7_emb]
  exact upd_block V c t p q

/-- An index of the output array lies in the block point t writes back iff, on each axis, its coordinate lies in the
    block's range on that axis: rows t·10000 … t·10000 + 9999 and columns 0 … 63. -/
theorem mem_block (t : Fin cfg2.N) (i : S100000x64.Idx) :
    i ∈ ((cfg2.win 7).blk t).view.set
      ↔ ∀ a : Fin 2, win2_7.index t a * S10000x64.size a ≤ (i a).val
          ∧ (i a).val < win2_7.index t a * S10000x64.size a + S10000x64.size a := by
  show i ∈ ((View.whole main_v35).slice (win2_7.rect t)).set ↔ _
  rw [View.set_slice_whole, Rect.mem_set_unit]
  exact Iff.rfl

/-- Every index of the output array lies in some point's block: row r is in the block of point r / 10000, which is one
    of the 10 points because r < 100000, and every point writes its block back. -/
theorem rows_covered (i : S100000x64.Idx) :
    ∃ t : Fin cfg2.N, (cfg2.win 7).flush t = true ∧ i ∈ ((cfg2.win 7).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by show _ < grid2.N; rw [N_2]; omega⟩, rfl⟩
  obtain ⟨-, -, -, -, -, -, -, -, -, -, -, -, -, -, e0, e1, -⟩ := idx_facts t
  refine ⟨t, flush2_7 t, ?_⟩
  rw [mem_block]
  intro a
  match a with
  | ⟨0, _⟩ =>
    show win2_7.index t (0 : Fin 2) * 10000 ≤ (i 0).val ∧ (i 0).val < win2_7.index t (0 : Fin 2) * 10000 + 10000
    omega
  | ⟨1, _⟩ =>
    show win2_7.index t (1 : Fin 2) * 64 ≤ (i 1).val ∧ (i 1).val < win2_7.index t (1 : Fin 2) * 64 + 64
    omega

/-- After the update kernel has run over all its 10 row blocks, its output array holds the update perceptron of every
    node's row and summed messages. -/
theorem arrAt2 (c : Dev nD) :
    (dat2 (F := Ideal) V c).arrAt 7 cfg2.N
      = Spec.updRowsF (V c main_arg0) (V c main_v30) (V c main_v31) (V c main_v32) (fun h => V c main_v33 (ix2 (0 : Fin 1) h))
          (V c main_arg13) (fun n => V c main_v34 (ix2 (0 : Fin 1) n)) :=
  (dat2 (F := Ideal) V c).arrAt_eq_of_cover 7 _ (fun t _ => wb_block V c t) rows_covered

end Cert.KernelIdeal.RegionValue2

end
-- ==== Proof.HostChain.lean ====
/-
  The kernel program's arrays between its three kernels, followed from launch to the result.

  Before the first kernel the host code flattens the unary relation's index words, wraps the negative ones by the table's
  height and gathers the selected rows of the node table; the first kernel's output is then the message perceptron of
  those rows. Before the second kernel the same is done for the binary relation, two rows per edge laid side by side, and
  the second kernel's output is the message perceptron of those joined rows. Before the third kernel the messages are
  summed into the nodes their index words name (the binary relation's messages first split into one row per argument
  slot), the update matrix is cut into its top and bottom halves and the biases are made one-row matrices; the third
  kernel's output, the program's result, is the update perceptron of each node's own row and its summed messages. An array
  that no later host operation writes and that is none of a kernel's arrays keeps its contents across that kernel.
-/
import proofs.«114375_j21973052686562_1_alg».proof.Proof.Gen.KernelIdeal.Frame
import proofs.«114375_j21973052686562_1_alg».proof.Proof.Spec
import proofs.«114375_j21973052686562_1_alg».proof.Proof.LibScatterGather
import proofs.«114375_j21973052686562_1_alg».proof.Proof.RegionValue0
import proofs.«114375_j21973052686562_1_alg».proof.Proof.RegionValue1
import proofs.«114375_j21973052686562_1_alg».proof.Proof.RegionValue2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostChain

open Cert.KernelIdeal Cert.KernelIdeal.Gen Cert.LibDenseRows Idealize.ShloMosaic.StableHlo

variable (m : (ℓ : Loc nD τ sig) → Buf (Elt Ideal) ℓ) (ρ : Dev nD → PrngReg)

/-- A buffer no operation of a stretch writes holds after the stretch what it held before. -/
macro "not_written" : tactic =>
  `(tactic| (refine StableHlo.after_of_forall_not_mem _ _ (List.forall_iff_forall_mem.mp ?_)
             simp only [hostOps0, hostOps1, hostOps2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## Before the first kernel: the unary relation's rows and the first perceptron's biases -/

/-- The kernel program's gather for the unary relation, read at an index: the index column is flattened, wrapped,
    made a column again and used as the gather's start indices; row e of the result is the table's row the e-th word
    selects. -/
theorem kg1_eq (x0 : FVec Ideal S100000x64 .f32) (x1 : IVec S500000x1 32) :
    Host.gather gather_S100000x64_S500000x1_S500000x64_1_0_n_n_0_1_164 x0
        (broadcastInDim S500000x1 ![0] bcast_S500000_S500000x1_0
          (select (cmpi .slt (shapeCast S500000 x1 shapeCasts_S500000x1_S500000)
              (broadcastInDim S500000 ![] bcast_S_S500000 (constantI S_ 32 0#32)))
            (addi (shapeCast S500000 x1 shapeCasts_S500000x1_S500000)
              (broadcastInDim S500000 ![] bcast_S_S500000 (constantI S_ 32 100000#32)))
            (shapeCast S500000 x1 shapeCasts_S500000x1_S500000)))
      = Spec.gatherRows1 x0 x1 := by
  funext j
  obtain ⟨p, q, rfl⟩ : ∃ (p : Fin 500000) (q : Fin 64), j = ix2 p q := ⟨j 0, j 1, eq_ix2 j⟩
  rw [Cert.LibSG.gather_row_apply (by decide) _ rfl rfl rfl rfl rfl rfl rfl]
  unfold Spec.gatherRows1 Spec.rowOf
  refine congrArg x0 (congrArg (fun r => ix2 r q) (Fin.ext ?_))
  show min (_ : BitVec 32).toInt.toNat _ = min (_ : BitVec 32).toInt.toNat _
  refine congrArg (fun w : BitVec 32 => min w.toInt.toNat (100000 - 1)) ?_
  have hflat : (shapeCast S500000 x1 shapeCasts_S500000x1_S500000 : IVec S500000 32) (ix1 p) = x1 (ix2 p (0 : Fin 1)) :=
    shapeCast_apply x1 shapeCasts_S500000x1_S500000 (ix1 p) (ix2 p (0 : Fin 1))
      (by rewrite [Shape.rowMajor_val_two, Shape.rowMajor_val_one]; show p.val * 1 + 0 = p.val; omega)
  have hz0 : (broadcastInDim S500000 ![] bcast_S_S500000 (constantI S_ 32 0#32) : IVec S500000 32) (ix1 p) = 0#32 :=
    broadcastInDim_apply _ bcast_S_S500000 _ (ix1 p) ix0 (fun a => a.elim0)
  have hz1 : (broadcastInDim S500000 ![] bcast_S_S500000 (constantI S_ 32 100000#32) : IVec S500000 32) (ix1 p) = 100000#32 :=
    broadcastInDim_apply _ bcast_S_S500000 _ (ix1 p) ix0 (fun a => a.elim0)
  rw [broadcastInDim_apply _ bcast_S500000_S500000x1_0 _ (ix2 p (0 : Fin 1)) (ix1 p) (fun a => match a with
    | ⟨0, _⟩ => by show p.val = if (500000 : Nat) = 1 then 0 else p.val; rw [if_neg (by decide)])]
  show Scalar.select (IntOp.cmpi .slt _ _) (IntOp.addi _ _) _ = _
  rw [hflat, hz0, hz1]
  rfl

theorem V1_v7 (c : Dev nD) : (V1 m ρ c main_v7 : S500000x64.Idx → EReal) = Spec.gatherRows1 (m ((c : Thread nD τ).loc main_arg0)) (m ((c : Thread nD τ).loc main_arg1)) := by
  show StableHlo.after hostOps0 (W0 m ρ c) (Proc.devRef .tc main_v7) = _
  after_results
  exact kg1_eq _ _

/-- A bias vector made a one-row matrix reads, in its one row, the vector. -/
theorem V1_v8 (c : Dev nD) : (fun h : Fin 64 => (V1 m ρ c main_v8 : S1x64.Idx → EReal) (ix2 (0 : Fin 1) h)) = Spec.vec (m ((c : Thread nD τ).loc main_arg4)) := by
  funext h
  show StableHlo.after hostOps0 (W0 m ρ c) (Proc.devRef .tc main_v8) _ = _
  after_results
  exact shapeCast_a_1a_apply _ _ 0 h

theorem V1_v9 (c : Dev nD) : (fun h : Fin 64 => (V1 m ρ c main_v9 : S1x64.Idx → EReal) (ix2 (0 : Fin 1) h)) = Spec.vec (m ((c : Thread nD τ).loc main_arg6)) := by
  funext h
  show StableHlo.after hostOps0 (W0 m ρ c) (Proc.devRef .tc main_v9) _ = _
  after_results
  exact shapeCast_a_1a_apply _ _ 0 h

theorem V1_arg3 (c : Dev nD) : V1 m ρ c main_arg3 = (m ((c : Thread nD τ).loc main_arg3)) := by
  show StableHlo.after hostOps0 (W0 m ρ c) (Proc.devRef .tc main_arg3) = _
  not_written

theorem V1_arg5 (c : Dev nD) : V1 m ρ c main_arg5 = (m ((c : Thread nD τ).loc main_arg5)) := by
  show StableHlo.after hostOps0 (W0 m ρ c) (Proc.devRef .tc main_arg5) = _
  not_written

/-- The unary relation's messages: what the first kernel leaves in its output array. -/
theorem W2_v10 (c : Dev nD) : (W2 m ρ c (Proc.devRef .tc main_v10) : S500000x64.Idx → EReal)
    = Spec.mlpRowsF (Spec.gatherRows1 (m ((c : Thread nD τ).loc main_arg0)) (m ((c : Thread nD τ).loc main_arg1))) (m ((c : Thread nD τ).loc main_arg3)) (Spec.vec (m ((c : Thread nD τ).loc main_arg4))) (m ((c : Thread nD τ).loc main_arg5)) (Spec.vec (m ((c : Thread nD τ).loc main_arg6))) := by
  refine (W2_arr m ρ c 5).trans ?_
  refine (RegionValue0.arrAt0 (V1 m ρ) c).trans ?_
  rw [V1_v7, V1_v8, V1_v9, V1_arg3, V1_arg5]

/-! ## Between the first and the second kernel: the binary relation's rows and the second perceptron's biases -/

theorem W1_keep_arg0 (c : Dev nD) : W1 m ρ c (Proc.devRef .tc main_arg0) = (m ((c : Thread nD τ).loc main_arg0)) := by
  show StableHlo.after hostOps0 (W0 m ρ c) (Proc.devRef .tc main_arg0) = _
  not_written

/-- The binary relation's gathered rows in the kernel program's spelling: the index words wrapped, a trailing unit axis
    added, two rows gathered per edge and laid side by side. -/
def g2K (x0 : FVec Ideal S100000x64 .f32) (x2 : IVec S1000000x2 32) : FVec Ideal S1000000x128 .f32 :=
  shapeCast S1000000x128 (Host.gather gather_S100000x64_S1000000x2x1_S1000000x2x64_2_0_n_n_0_2_164 x0
    (broadcastInDim S1000000x2x1 ![0, 1] bcast_S1000000x2_S1000000x2x1_0_1
      (select (cmpi .slt x2 (broadcastInDim S1000000x2 ![] bcast_S_S1000000x2 (constantI S_ 32 0#32)))
        (addi x2 (broadcastInDim S1000000x2 ![] bcast_S_S1000000x2 (constantI S_ 32 100000#32))) x2)))
    shapeCasts_S1000000x2x64_S1000000x128

/-- An argument array no stretch and no earlier kernel writes holds at the second kernel's entry what it held at launch. -/
theorem W2_arg (c : Dev nD) (b : Ref sig .tc) (hb : ∀ w, Pipeline.arrRef spec0 w ≠ b)
    (h0 : W1 m ρ c (Proc.devRef .tc b) = m ((c : Thread nD τ).loc b)) :
    W2 m ρ c (Proc.devRef .tc b) = m ((c : Thread nD τ).loc b) := (W2_of_ne m ρ c b hb).trans h0

/-- A buffer that is none of the first kernel's arrays and that the first stretch does not write holds at the first
    kernel's exit what it held at launch. -/
theorem W2_launch (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = W0 m ρ c (Proc.devRef .tc b) := (W2_of_ne m ρ c b hb).trans h0

theorem W2_arg0 (c : Dev nD) : W2 m ρ c (Proc.devRef .tc main_arg0) = (m ((c : Thread nD τ).loc main_arg0)) :=
  W2_launch m ρ c main_arg0 (by decide) (by not_written)
theorem W2_arg2 (c : Dev nD) : W2 m ρ c (Proc.devRef .tc main_arg2) = (m ((c : Thread nD τ).loc main_arg2)) :=
  W2_launch m ρ c main_arg2 (by decide) (by not_written)
theorem W2_arg7 (c : Dev nD) : W2 m ρ c (Proc.devRef .tc main_arg7) = (m ((c : Thread nD τ).loc main_arg7)) :=
  W2_launch m ρ c main_arg7 (by decide) (by not_written)
theorem W2_arg8 (c : Dev nD) : W2 m ρ c (Proc.devRef .tc main_arg8) = (m ((c : Thread nD τ).loc main_arg8)) :=
  W2_launch m ρ c main_arg8 (by decide) (by not_written)
theorem W2_arg9 (c : Dev nD) : W2 m ρ c (Proc.devRef .tc main_arg9) = (m ((c : Thread nD τ).loc main_arg9)) :=
  W2_launch m ρ c main_arg9 (by decide) (by not_written)
theorem W2_arg10 (c : Dev nD) : W2 m ρ c (Proc.devRef .tc main_arg10) = (m ((c : Thread nD τ).loc main_arg10)) :=
  W2_launch m ρ c main_arg10 (by decide) (by not_written)

/-- The second kernel's row array: the binary relation's gathered rows. -/
theorem V3_v19 (c : Dev nD) : (V3 m ρ c main_v19 : S1000000x128.Idx → EReal) = g2K (m ((c : Thread nD τ).loc main_arg0)) (m ((c : Thread nD τ).loc main_arg2)) := by
  rw [← W2_arg0 m ρ c, ← W2_arg2 m ρ c]
  show StableHlo.after hostOps1 (W2 m ρ c) (Proc.devRef .tc main_v19) = _
  after_results
  rfl

theorem V3_v20 (c : Dev nD) : (fun h : Fin 128 => (V3 m ρ c main_v20 : S1x128.Idx → EReal) (ix2 (0 : Fin 1) h)) = Spec.vec (m ((c : Thread nD τ).loc main_arg8)) := by
  funext h
  show StableHlo.after hostOps1 (W2 m ρ c) (Proc.devRef .tc main_v20) _ = _
  after_results
  exact (shapeCast_a_1a_apply _ _ 0 h).trans (congrFun (W2_arg8 m ρ c) (ix1 h))

theorem V3_v21 (c : Dev nD) : (fun h : Fin 128 => (V3 m ρ c main_v21 : S1x128.Idx → EReal) (ix2 (0 : Fin 1) h)) = Spec.vec (m ((c : Thread nD τ).loc main_arg10)) := by
  funext h
  show StableHlo.after hostOps1 (W2 m ρ c) (Proc.devRef .tc main_v21) _ = _
  after_results
  exact (shapeCast_a_1a_apply _ _ 0 h).trans (congrFun (W2_arg10 m ρ c) (ix1 h))

theorem V3_arg7 (c : Dev nD) : V3 m ρ c main_arg7 = (m ((c : Thread nD τ).loc main_arg7)) := by
  refine Eq.trans ?_ (W2_arg7 m ρ c)
  show StableHlo.after hostOps1 (W2 m ρ c) (Proc.devRef .tc main_arg7) = _
  not_written

theorem V3_arg9 (c : Dev nD) : V3 m ρ c main_arg9 = (m ((c : Thread nD τ).loc main_arg9)) := by
  refine Eq.trans ?_ (W2_arg9 m ρ c)
  show StableHlo.after hostOps1 (W2 m ρ c) (Proc.devRef .tc main_arg9) = _
  not_written

/-- The binary relation's messages: what the second kernel leaves in its output array. -/
theorem W4_v22 (c : Dev nD) : (W4 m ρ c (Proc.devRef .tc main_v22) : S1000000x128.Idx → EReal)
    = Spec.mlpRowsF (g2K (m ((c : Thread nD τ).loc main_arg0)) (m ((c : Thread nD τ).loc main_arg2))) (m ((c : Thread nD τ).loc main_arg7)) (Spec.vec (m ((c : Thread nD τ).loc main_arg8))) (m ((c : Thread nD τ).loc main_arg9)) (Spec.vec (m ((c : Thread nD τ).loc main_arg10))) := by
  refine (W4_arr m ρ c 5).trans ?_
  refine (RegionValue1.arrAt1 (V3 m ρ) c).trans ?_
  rw [V3_v19, V3_v20, V3_v21, V3_arg7, V3_arg9]

/-! ## Between the second and the third kernel: the messages summed into the nodes, the weight halves, the biases -/

/-- A buffer that is none of the second kernel's arrays and that the second stretch does not write holds at the second
    kernel's exit what it held at the first kernel's exit. -/
theorem W4_keep (c : Dev nD) (b : Ref sig .tc) (hb : ∀ w, Pipeline.arrRef spec1 w ≠ b)
    (h1 : StableHlo.after hostOps1 (W2 m ρ c) (Proc.devRef .tc b) = W2 m ρ c (Proc.devRef .tc b)) :
    W4 m ρ c (Proc.devRef .tc b) = W2 m ρ c (Proc.devRef .tc b) := (W4_of_ne m ρ c b hb).trans h1

theorem W4_arg0 (c : Dev nD) : W4 m ρ c (Proc.devRef .tc main_arg0) = (m ((c : Thread nD τ).loc main_arg0)) :=
  (W4_keep m ρ c main_arg0 (by decide) (by not_written)).trans (W2_arg0 m ρ c)
theorem W4_arg11 (c : Dev nD) : W4 m ρ c (Proc.devRef .tc main_arg11) = (m ((c : Thread nD τ).loc main_arg11)) :=
  (W4_keep m ρ c main_arg11 (by decide) (by not_written)).trans (W2_launch m ρ c main_arg11 (by decide) (by not_written))
theorem W4_arg12 (c : Dev nD) : W4 m ρ c (Proc.devRef .tc main_arg12) = (m ((c : Thread nD τ).loc main_arg12)) :=
  (W4_keep m ρ c main_arg12 (by decide) (by not_written)).trans (W2_launch m ρ c main_arg12 (by decide) (by not_written))
theorem W4_arg13 (c : Dev nD) : W4 m ρ c (Proc.devRef .tc main_arg13) = (m ((c : Thread nD τ).loc main_arg13)) :=
  (W4_keep m ρ c main_arg13 (by decide) (by not_written)).trans (W2_launch m ρ c main_arg13 (by decide) (by not_written))
theorem W4_arg14 (c : Dev nD) : W4 m ρ c (Proc.devRef .tc main_arg14) = (m ((c : Thread nD τ).loc main_arg14)) :=
  (W4_keep m ρ c main_arg14 (by decide) (by not_written)).trans (W2_launch m ρ c main_arg14 (by decide) (by not_written))

/-- The unary relation's index words flattened: written by the first stretch, kept to the third. -/
theorem W4_v0 (c : Dev nD) : (W4 m ρ c (Proc.devRef .tc main_v0) : S500000.Idx → BitVec 32)
    = shapeCast S500000 (m ((c : Thread nD τ).loc main_arg1)) shapeCasts_S500000x1_S500000 := by
  refine (W4_keep m ρ c main_v0 (by decide) (by not_written)).trans ?_
  refine (W2_of_ne m ρ c main_v0 (by decide)).trans ?_
  show StableHlo.after hostOps0 (W0 m ρ c) (Proc.devRef .tc main_v0) = _
  after_results
  rfl

/-- The unary relation's messages, kept from the first kernel's exit to the third stretch. -/
theorem W4_v10 (c : Dev nD) : (W4 m ρ c (Proc.devRef .tc main_v10) : S500000x64.Idx → EReal)
    = Spec.mlpRowsF (Spec.gatherRows1 (m ((c : Thread nD τ).loc main_arg0)) (m ((c : Thread nD τ).loc main_arg1))) (m ((c : Thread nD τ).loc main_arg3)) (Spec.vec (m ((c : Thread nD τ).loc main_arg4))) (m ((c : Thread nD τ).loc main_arg5)) (Spec.vec (m ((c : Thread nD τ).loc main_arg6))) :=
  (W4_keep m ρ c main_v10 (by decide) (by not_written)).trans (W2_v10 m ρ c)

/-- The binary relation's index words flattened: written by the second stretch. -/
theorem W4_v11 (c : Dev nD) : (W4 m ρ c (Proc.devRef .tc main_v11) : S2000000.Idx → BitVec 32)
    = shapeCast S2000000 (m ((c : Thread nD τ).loc main_arg2)) shapeCasts_S1000000x2_S2000000 := by
  rw [← W2_arg2 m ρ c]
  refine (W4_of_ne m ρ c main_v11 (by decide)).trans ?_
  show StableHlo.after hostOps1 (W2 m ρ c) (Proc.devRef .tc main_v11) = _
  after_results
  rfl

/-- The messages summed into the nodes, from the flattened index words: the unary messages scattered by the unary words
    plus the binary messages, one row per argument slot, scattered by the binary words. -/
def aggFlat (i1 : IVec S500000 32) (i2 : IVec S2000000 32) (M1 : FVec Ideal S500000x64 .f32) (M2 : FVec Ideal S1000000x128 .f32) :
    FVec Ideal S100000x64 .f32 :=
  addf (F := Ideal)
    (Host.scatterAdd scatter_S100000x64_S500000x1_S500000x64_1_0_0_1
      (broadcastInDim S100000x64 ![] bcast_S_S100000x64 (constant (F := Ideal) S_ .f32 0x00000000#32))
      (broadcastInDim S500000x1 ![0] bcast_S500000_S500000x1_0 i1) M1)
    (Host.scatterAdd scatter_S100000x64_S2000000x1_S2000000x64_1_0_0_1
      (broadcastInDim S100000x64 ![] bcast_S_S100000x64 (constant (F := Ideal) S_ .f32 0x00000000#32))
      (broadcastInDim S2000000x1 ![0] bcast_S2000000_S2000000x1_0 i2)
      (shapeCast S2000000x64 M2 shapeCasts_S1000000x128_S2000000x64))

/-- The same from the index arrays as the program receives them. -/
def aggK (x1 : IVec S500000x1 32) (x2 : IVec S1000000x2 32) (M1 : FVec Ideal S500000x64 .f32) (M2 : FVec Ideal S1000000x128 .f32) :
    FVec Ideal S100000x64 .f32 :=
  aggFlat (shapeCast S500000 x1 shapeCasts_S500000x1_S500000) (shapeCast S2000000 x2 shapeCasts_S1000000x2_S2000000) M1 M2

/-- The third kernel's second row array: the summed messages. -/
theorem V5_v30 (c : Dev nD) : (V5 m ρ c main_v30 : S100000x64.Idx → EReal)
    = aggK (m ((c : Thread nD τ).loc main_arg1)) (m ((c : Thread nD τ).loc main_arg2))
        (Spec.mlpRowsF (Spec.gatherRows1 (m ((c : Thread nD τ).loc main_arg0)) (m ((c : Thread nD τ).loc main_arg1))) (m ((c : Thread nD τ).loc main_arg3)) (Spec.vec (m ((c : Thread nD τ).loc main_arg4))) (m ((c : Thread nD τ).loc main_arg5)) (Spec.vec (m ((c : Thread nD τ).loc main_arg6))))
        (Spec.mlpRowsF (g2K (m ((c : Thread nD τ).loc main_arg0)) (m ((c : Thread nD τ).loc main_arg2))) (m ((c : Thread nD τ).loc main_arg7)) (Spec.vec (m ((c : Thread nD τ).loc main_arg8))) (m ((c : Thread nD τ).loc main_arg9)) (Spec.vec (m ((c : Thread nD τ).loc main_arg10)))) := by
  unfold aggK
  rw [← W4_v0 m ρ c, ← W4_v11 m ρ c, ← W4_v10 m ρ c, ← W4_v22 m ρ c]
  show StableHlo.after hostOps2 (W4 m ρ c) (Proc.devRef .tc main_v30) = _
  after_results
  rfl

/-- The first weight window of the update kernel: the top half of the update matrix. -/
theorem V5_v31 (c : Dev nD) : (V5 m ρ c main_v31 : S64x64.Idx → EReal) = Spec.topHalf (m ((c : Thread nD τ).loc main_arg11)) := by
  rw [← W4_arg11 m ρ c]
  show StableHlo.after hostOps2 (W4 m ρ c) (Proc.devRef .tc main_v31) = _
  after_results
  funext i
  unfold Spec.topHalf
  refine extractStridedSlice_apply _ _ _ i _ fun a => ?_
  match a with
  | ⟨0, _⟩ => exact (Nat.zero_add _).symm
  | ⟨1, _⟩ => exact (Nat.zero_add _).symm

/-- The second weight window of the update kernel: the bottom half of the update matrix. -/
theorem V5_v32 (c : Dev nD) : (V5 m ρ c main_v32 : S64x64.Idx → EReal) = Spec.botHalf (m ((c : Thread nD τ).loc main_arg11)) := by
  rw [← W4_arg11 m ρ c]
  show StableHlo.after hostOps2 (W4 m ρ c) (Proc.devRef .tc main_v32) = _
  after_results
  funext i
  unfold Spec.botHalf
  refine extractStridedSlice_apply _ _ _ i _ fun a => ?_
  match a with
  | ⟨0, _⟩ => rfl
  | ⟨1, _⟩ => exact (Nat.zero_add _).symm

theorem V5_v33 (c : Dev nD) : (fun h : Fin 64 => (V5 m ρ c main_v33 : S1x64.Idx → EReal) (ix2 (0 : Fin 1) h)) = Spec.vec (m ((c : Thread nD τ).loc main_arg12)) := by
  funext h
  show StableHlo.after hostOps2 (W4 m ρ c) (Proc.devRef .tc main_v33) _ = _
  after_results
  exact (shapeCast_a_1a_apply _ _ 0 h).trans (congrFun (W4_arg12 m ρ c) (ix1 h))

theorem V5_v34 (c : Dev nD) : (fun h : Fin 64 => (V5 m ρ c main_v34 : S1x64.Idx → EReal) (ix2 (0 : Fin 1) h)) = Spec.vec (m ((c : Thread nD τ).loc main_arg14)) := by
  funext h
  show StableHlo.after hostOps2 (W4 m ρ c) (Proc.devRef .tc main_v34) _ = _
  after_results
  exact (shapeCast_a_1a_apply _ _ 0 h).trans (congrFun (W4_arg14 m ρ c) (ix1 h))

theorem V5_arg0 (c : Dev nD) : V5 m ρ c main_arg0 = (m ((c : Thread nD τ).loc main_arg0)) := by
  refine Eq.trans ?_ (W4_arg0 m ρ c)
  show StableHlo.after hostOps2 (W4 m ρ c) (Proc.devRef .tc main_arg0) = _
  not_written

theorem V5_arg13 (c : Dev nD) : V5 m ρ c main_arg13 = (m ((c : Thread nD τ).loc main_arg13)) := by
  refine Eq.trans ?_ (W4_arg13 m ρ c)
  show StableHlo.after hostOps2 (W4 m ρ c) (Proc.devRef .tc main_arg13) = _
  not_written

/-! ## The result -/

/-- The result array after the run: the layer of Spec.lean of the argument arrays, with the binary relation's gathered
    rows and the summation of the messages in this program's spelling. -/
theorem W6_v35 (c : Dev nD) : (W6 m ρ c (Proc.devRef .tc main_v35) : S100000x64.Idx → EReal)
    = Spec.out (g2K (m ((c : Thread nD τ).loc main_arg0)) (m ((c : Thread nD τ).loc main_arg2))) (aggK (m ((c : Thread nD τ).loc main_arg1)) (m ((c : Thread nD τ).loc main_arg2))) (m ((c : Thread nD τ).loc main_arg0)) (m ((c : Thread nD τ).loc main_arg1))
        (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 7).trans ?_
  refine (RegionValue2.arrAt2 (V5 m ρ) c).trans ?_
  rw [V5_arg0, V5_v30, V5_v31, V5_v32, V5_v33, V5_arg13, V5_v34]
  rfl

end Cert.KernelIdeal.HostChain

end
-- ==== Proof.LibGather3.lean ====
/-
  A GATHER OF ROWS WITH TWO BATCH AXES, READ AT AN INDEX.

  A gather of whole rows of an [N, C] table at start indices [M, A, 1] (one word per batch position (e, a), the index
  vector's axis being the last, of size one) into a result [M, A, C] returns, at (e, a, h), the table's entry (row, h),
  where row is the start index at (e, a) read as a signed integer and clamped into [0, N - 1]: on the table's axis 0
  (collapsed, and the one the start index map names) the operand index is the clamped start alone, and on axis 1 (the
  one offset axis of the result, axis 2) it is the result's coordinate h.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

namespace Cert.LibGather3

open Idealize.ShloMosaic Idealize.ShloMosaic.ValueIdx

/-- The row gather's dimension numbers for a table [N, C], start indices [M, A, 1] and a result [M, A, C]. -/
abbrev rowGather3 (N C M A : Nat)
    (wf : GatherDims.WF ⟨2, ![N, C]⟩ ⟨3, ![M, A, 1]⟩ ⟨3, ![M, A, C]⟩ [2] [0] [] [0] [] 2 ![1, C]) :
    GatherDims ⟨2, ![N, C]⟩ ⟨3, ![M, A, 1]⟩ ⟨3, ![M, A, C]⟩ where
  offsetDims := [2]
  collapsedSliceDims := [0]
  operandBatchingDims := []
  startIndicesBatchingDims := []
  startIndexMap := [0]
  indexVectorDim := 2
  sliceSizes := ![1, C]
  wf := wf

/-- The row gather with those dimension numbers, read at (e, a, h). -/
theorem rowGather3_apply {α : Type} {N C M A w : Nat} (hN : 0 < N)
    (wf : GatherDims.WF ⟨2, ![N, C]⟩ ⟨3, ![M, A, 1]⟩ ⟨3, ![M, A, C]⟩ [2] [0] [] [0] [] 2 ![1, C])
    (x : (⟨2, ![N, C]⟩ : Shape).Idx → α) (idx : IVec ⟨3, ![M, A, 1]⟩ w) (e : Fin M) (a : Fin A) (h : Fin C) :
    Host.gather (rowGather3 N C M A wf) x idx (ix3 e a h)
      = x (ix2 ⟨min (idx (ix3 e a (0 : Fin 1))).toInt.toNat (N - 1), by omega⟩ h) := by
  unfold Host.gather
  congr 1
  funext ax
  refine Fin.ext ?_
  match ax with
  | ⟨0, _⟩ =>
    show (rowGather3 N C M A wf).start (ix3 e a h) idx 0 + (rowGather3 N C M A wf).batchCoord (ix3 e a h) 0
      + (rowGather3 N C M A wf).offCoord (ix3 e a h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather3 N C M A wf).startIndexMap from List.mem_singleton.mpr rfl)]
    have hsi : (rowGather3 N C M A wf).siIdx (ix3 e a h)
        ⟨List.idxOf (0 : Fin 2) (rowGather3 N C M A wf).startIndexMap,
          List.idxOf_lt_length_iff.2 (List.mem_singleton.mpr rfl)⟩ = ix3 e a (0 : Fin 1) := by
      funext b; refine Fin.ext ?_
      match b with
      | ⟨0, _⟩ => rfl
      | ⟨1, _⟩ => rfl
      | ⟨2, _⟩ => rfl
    rw [hsi]
    rfl
  | ⟨1, _⟩ =>
    show (rowGather3 N C M A wf).start (ix3 e a h) idx 1 + (rowGather3 N C M A wf).batchCoord (ix3 e a h) 1
      + (rowGather3 N C M A wf).offCoord (ix3 e a h) 1 = h.val
    have h1 : (1 : Fin 2) ∉ (rowGather3 N C M A wf).startIndexMap := fun hm =>
      absurd (congrArg Fin.val (List.mem_singleton.mp hm)) Nat.one_ne_zero
    have h2 : (1 : Fin 2) ∈ (rowGather3 N C M A wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- THE ROW GATHER WITH TWO BATCH AXES AT (e, a, h): the table's entry (row, h), the row being the start index at
    (e, a) read signed and clamped into [0, N - 1]. The record's lists are hypotheses, so that a program's record is an
    instance by seven rfl's. -/
theorem gather_row3_apply {α : Type} {N C M A w : Nat} (hN : 0 < N)
    (d : GatherDims ⟨2, ![N, C]⟩ ⟨3, ![M, A, 1]⟩ ⟨3, ![M, A, C]⟩)
    (hod : d.offsetDims = [2]) (hcd : d.collapsedSliceDims = [0]) (hob : d.operandBatchingDims = [])
    (hsb : d.startIndicesBatchingDims = []) (hsm : d.startIndexMap = [0]) (hiv : d.indexVectorDim = 2)
    (hss : d.sliceSizes = ![1, C])
    (x : (⟨2, ![N, C]⟩ : Shape).Idx → α) (idx : IVec ⟨3, ![M, A, 1]⟩ w) (e : Fin M) (a : Fin A) (h : Fin C) :
    Host.gather d x idx (ix3 e a h)
      = x (ix2 ⟨min (idx (ix3 e a (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather3_apply hN wf x idx e a h

end Cert.LibGather3

end
-- ==== Proof.RefGather.lean ====
/-
  THE REFERENCE'S GATHERED ROWS FOR THE UNARY RELATION.

  The reference wraps each index word (a negative word has the table's height, 100000, added), lays the words out as
  [500000, 1, 1], gathers whole rows of the [100000, 64] node table into [500000, 1, 64] and reshapes to [500000, 64].
  Read at (e, h): the reshape reads (e, 0, h), since (64e + h) / 64 = e and (64e + h) % 64 = h; the gather there reads
  the table at (row, h), row being the start index at (e, 0) read as a signed integer and clamped into [0, 99999]; and
  that start index is the wrapped e-th word. So entry (e, h) is the table's entry (rowOf (word e), h).
-/
import proofs.«114375_j21973052686562_1_alg».proof.Proof.Gen.ReferenceIdeal.Read
import proofs.«114375_j21973052686562_1_alg».proof.Proof.Spec
import proofs.«114375_j21973052686562_1_alg».proof.Proof.LibScatterGather
import proofs.«114375_j21973052686562_1_alg».proof.Proof.LibGather3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.RefGather

open Cert.ReferenceIdeal Cert.ReferenceIdeal.Gen Cert.ReferenceIdeal.Read

/-- The reshape [500000, 1, 64] → [500000, 64] reads (p, q) at (p, 0, q): (64p + q) / 64 = p and (64p + q) % 64 = q. -/
theorem idx_v7_ix2 (p : Fin 500000) (q : Fin 64) : idx_main_v7 (ix2 p q) = ix3 p (0 : Fin 1) q := by
  funext b; refine Fin.ext ?_
  match b with
  | ⟨0, _⟩ =>
    show (p.val * 64 + q.val) / 64 = p.val
    have := p.isLt; have := q.isLt; omega
  | ⟨1, _⟩ => rfl
  | ⟨2, _⟩ =>
    show (p.val * 64 + q.val) % 64 = q.val
    have := p.isLt; have := q.isLt; omega

/-- The broadcast [500000, 1] → [500000, 1, 1] reads (p, 0, 0) at (p, 0). -/
theorem idx_v5_ix3 (p : Fin 500000) : idx_main_v5 (ix3 p (0 : Fin 1) (0 : Fin 1)) = ix2 p (0 : Fin 1) := by
  funext b; refine Fin.ext ?_
  match b with
  | ⟨0, _⟩ => rfl
  | ⟨1, _⟩ => rfl

/-- The start index the gather reads for row p: the p-th index word, a negative one raised by the table's height. -/
theorem start_word (x1 : (⟨S500000x1, .i32⟩ : BufTy).Contents (Elt Ideal)) (p : Fin 500000) :
    val_main_v5 (F := Ideal) x1 (ix3 p (0 : Fin 1) (0 : Fin 1)) = Spec.wrapIdx (x1 (ix2 p (0 : Fin 1))) := by
  rw [val_main_v5_apply, idx_v5_ix3, val_main_v4_apply, val_main_v1_apply, val_main_v3_apply, val_main_v0_apply,
    val_main_v2_apply, val_main_c_apply, val_main_c_0_apply]
  rfl

/-- The reference's gathered rows for the unary relation: row e is the table's row selected by the e-th index word. -/
theorem g1_eq (x0 : (⟨S100000x64, .f32⟩ : BufTy).Contents (Elt Ideal)) (x1 : (⟨S500000x1, .i32⟩ : BufTy).Contents (Elt Ideal)) :
    val_main_v7 (F := Ideal) x0 x1 = Spec.gatherRows1 x0 x1 := by
  funext j
  obtain ⟨p, q, rfl⟩ : ∃ (p : Fin 500000) (q : Fin 64), j = ix2 p q := ⟨j 0, j 1, eq_ix2 j⟩
  rw [val_main_v7_apply, idx_v7_ix2]
  unfold val_main_v6
  rw [Cert.LibGather3.gather_row3_apply (by decide) _ rfl rfl rfl rfl rfl rfl rfl]
  have hrow : (⟨min (val_main_v5 (F := Ideal) x1 (ix3 p (0 : Fin 1) (0 : Fin 1))).toInt.toNat (100000 - 1), by omega⟩ : Fin 100000)
      = Spec.rowOf (x1 (ix2 p (0 : Fin 1))) := Fin.ext (by
        show min (val_main_v5 (F := Ideal) x1 (ix3 p (0 : Fin 1) (0 : Fin 1))).toInt.toNat (100000 - 1)
          = min (Spec.wrapIdx (x1 (ix2 p (0 : Fin 1)))).toInt.toNat (100000 - 1)
        rw [start_word])
  rw [hrow]
  rfl

end Cert.ReferenceIdeal.RefGather

end
-- ==== Proof.RefValue.lean ====
/-
  The reference's result is the layer of Spec.lean.

  A host perceptron relu(X·W₁ + b₁)·W₂ + b₂ on all rows of an array is, read at (r, n), the row perceptron of row r at n:
  each product is the sum over the contracted coordinate, each bias is its vector repeated over the rows, and the
  rectifier is the maximum with the zero word. This gives the two message perceptrons (on the unary relation's gathered
  rows and on the binary relation's) and the outer form of the update perceptron. The update perceptron's operand is the
  node table and the summed messages joined side by side: coordinate k of a joined row is the table's row at k for
  k < 64 and the summed messages' row at k − 64 otherwise, so the sum over the 128 joined coordinates against the weight
  matrix is the sum over the first 64 against its top half plus the sum over the last 64 against its bottom half.
-/
import proofs.«114375_j21973052686562_1_alg».proof.Proof.Gen.ReferenceIdeal.Read
import proofs.«114375_j21973052686562_1_alg».proof.Proof.Spec
import proofs.«114375_j21973052686562_1_alg».proof.Proof.RefGather
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen Cert.ReferenceIdeal.Read Cert.LibDenseRows

/-- The binary relation's gathered rows, in the reference's spelling. -/
def g2R (x0 : (⟨S100000x64, .f32⟩ : BufTy).Contents (Elt Ideal)) (x2 : (⟨S1000000x2, .i32⟩ : BufTy).Contents (Elt Ideal)) : (⟨S1000000x128, .f32⟩ : BufTy).Contents (Elt Ideal) :=
  val_main_v25 (F := Ideal) x0 x2

/-- The messages summed into the nodes, in the reference's spelling: the unary messages scattered by the unary index
    words plus the binary messages, one per argument slot, scattered by the binary index words. -/
def aggR (x1 : (⟨S500000x1, .i32⟩ : BufTy).Contents (Elt Ideal)) (x2 : (⟨S1000000x2, .i32⟩ : BufTy).Contents (Elt Ideal))
    (M1 : FVec Ideal S500000x64 .f32) (M2 : FVec Ideal S1000000x128 .f32) : FVec Ideal S100000x64 .f32 :=
  addf (F := Ideal) (Host.scatterAdd scatter_S100000x64_S500000x1_S500000x64_1_0_0_1 (val_main_v37 (F := Ideal)) (val_main_v38 (F := Ideal) x1) M1)
    (Host.scatterAdd scatter_S100000x64_S2000000x1_S2000000x64_1_0_0_1 (val_main_v40 (F := Ideal)) (val_main_v41 (F := Ideal) x2)
      (shapeCast S2000000x64 M2 shapeCasts_S1000000x128_S2000000x64))

/-- The host's two-layer perceptron on all rows is, entry by entry, the row perceptron of each row. -/
theorem hMlp_eq {R K H N : ℕ} (X : FVec Ideal (Sh2 R K) .f32) (W1 : FVec Ideal (Sh2 K H) .f32) (b1 : FVec Ideal (Sh1 H) .f32)
    (W2 : FVec Ideal (Sh2 H N) .f32) (b2 : FVec Ideal (Sh1 N) .f32)
    (h1 : (Sh1 H).BroadcastsInDim (Sh2 1 H) ![1]) (h2 : (Sh2 1 H).BroadcastsInDim (Sh2 R H) ![0, 1])
    (hb : Sh0.BroadcastsInDim (Sh2 R H) ![])
    (h3 : (Sh1 N).BroadcastsInDim (Sh2 1 N) ![1]) (h4 : (Sh2 1 N).BroadcastsInDim (Sh2 R N) ![0, 1]) :
    hDense (hRelu (hDense X W1 b1 h1 h2) hb) W2 b2 h3 h4 = Spec.mlpRowsF X W1 (Spec.vec b1) W2 (Spec.vec b2) := by
  funext j
  obtain ⟨p, q, rfl⟩ : ∃ (p : Fin R) (q : Fin N), j = ix2 p q := ⟨j 0, j 1, eq_ix2 j⟩
  have e1 := congrFun (hDense_row (hRelu (hDense X W1 b1 h1 h2) hb) W2 b2 h3 h4 p) q
  have e2 := hRelu_row (hDense X W1 b1 h1 h2) hb p
  have e3 := hDense_row X W1 b1 h1 h2 p
  rw [e2, e3] at e1
  exact e1

/-- The row perceptron of two arrays joined side by side is the update perceptron of the two arrays, with the weight
    matrix's top and bottom halves. -/
theorem mlp_concat {R N : ℕ} (X A : (Sh2 R 64).Idx → EReal)
    (hc : Shape.Concatenates [Sh2 R 64, Sh2 R 64] (Sh2 R 128) 1)
    (W : (Sh2 128 64).Idx → EReal) (b1 : Fin 64 → EReal) (W2 : (Sh2 64 N).Idx → EReal) (b2 : Fin N → EReal) :
    Spec.mlpRowsF (concatenate (Sh2 R 128) 1 [⟨Sh2 R 64, X⟩, ⟨Sh2 R 64, A⟩] hc) W b1 W2 b2
      = Spec.updRowsF X A (Spec.topHalf W) (Spec.botHalf W) b1 W2 b2 := by
  funext j
  obtain ⟨p, q, rfl⟩ : ∃ (p : Fin R) (q : Fin N), j = ix2 p q := ⟨j 0, j 1, eq_ix2 j⟩
  have hL : ∀ (k : Fin 64) (hk : k.val < 128),
      concatenate (Sh2 R 128) 1 [⟨Sh2 R 64, X⟩, ⟨Sh2 R 64, A⟩] hc (ix2 p (⟨k.val, hk⟩ : Fin 128)) = X (ix2 p k) := fun k hk =>
    concatenate_pair_apply_left 1 X A hc _ rfl _ (fun b => by
      match b with
      | ⟨0, _⟩ => rfl
      | ⟨1, _⟩ => rfl)
  have hR : ∀ (k : Fin 64) (hk : 64 + k.val < 128),
      concatenate (Sh2 R 128) 1 [⟨Sh2 R 64, X⟩, ⟨Sh2 R 64, A⟩] hc (ix2 p (⟨64 + k.val, hk⟩ : Fin 128)) = A (ix2 p k) := fun k hk =>
    concatenate_pair_apply_right 1 X A hc _ rfl rfl _
      (fun b hb => by
        match b with
        | ⟨0, _⟩ => rfl
        | ⟨1, _⟩ => exact absurd rfl hb)
      (by show k.val + 64 = 64 + k.val; omega)
  have e : dense (fun k : Fin 128 => concatenate (Sh2 R 128) 1 [⟨Sh2 R 64, X⟩, ⟨Sh2 R 64, A⟩] hc (ix2 p k)) (fun k h => W (ix2 k h)) b1
      = fun h => ((∑ k : Fin 64, X (ix2 p k) * Spec.topHalf W (ix2 k h)) + (∑ k : Fin 64, A (ix2 p k) * Spec.botHalf W (ix2 k h))) + b1 h := by
    funext h
    unfold dense
    rw [Spec.sum_split]
    simp only [hL, hR]
    rfl
  show dense (relu (dense (fun k : Fin 128 => concatenate (Sh2 R 128) 1 [⟨Sh2 R 64, X⟩, ⟨Sh2 R 64, A⟩] hc (ix2 p k)) (fun k h => W (ix2 k h)) b1))
      (fun h n => W2 (ix2 h n)) b2 q = _
  rw [e]
  rfl

/-- The unary relation's messages: the perceptron on the gathered rows. -/
theorem m1_eq (x0 : (⟨S100000x64, .f32⟩ : BufTy).Contents (Elt Ideal)) (x1 : (⟨S500000x1, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v16 (F := Ideal) x0 x1 x3 x4 x5 x6 = Spec.mlpRowsF (Spec.gatherRows1 x0 x1) x3 (Spec.vec x4) x5 (Spec.vec x6) := by
  rw [← RefGather.g1_eq x0 x1]
  exact hMlp_eq (R := 500000) (K := 64) (H := 64) (N := 64) (val_main_v7 (F := Ideal) x0 x1) x3 x4 x5 x6 bcast_S64_S1x64_1 bcast_S1x64_S500000x64_0_1 bcast_S_S500000x64
    bcast_S64_S1x64_1 bcast_S1x64_S500000x64_0_1

/-- The binary relation's messages: the perceptron on the gathered rows. -/
theorem m2_eq (x0 : (⟨S100000x64, .f32⟩ : BufTy).Contents (Elt Ideal)) (x2 : (⟨S1000000x2, .i32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v34 (F := Ideal) x0 x2 x7 x8 x9 x10 = Spec.mlpRowsF (g2R x0 x2) x7 (Spec.vec x8) x9 (Spec.vec x10) :=
  hMlp_eq (R := 1000000) (K := 128) (H := 128) (N := 128) (val_main_v25 (F := Ideal) x0 x2) x7 x8 x9 x10 bcast_S128_S1x128_1 bcast_S1x128_S1000000x128_0_1 bcast_S_S1000000x128
    bcast_S128_S1x128_1 bcast_S1x128_S1000000x128_0_1

/-- The reference's result is the layer of Spec.lean at the reference's spelling of the two shared pieces. -/
theorem ref_value (x0 : (⟨S100000x64, .f32⟩ : BufTy).Contents (Elt Ideal)) (x1 : (⟨S500000x1, .i32⟩ : BufTy).Contents (Elt Ideal)) (x2 : (⟨S1000000x2, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) :
    val_main_v53 (F := Ideal) x0 x1 x2 x3 x4 x5 x6 x7 x8 x9 x10 x11 x12 x13 x14
      = Spec.out (g2R x0 x2) (aggR x1 x2) x0 x1 x3 x4 x5 x6 x7 x8 x9 x10 x11 x12 x13 x14 := by
  have e43 : val_main_v43 (F := Ideal) x0 x1 x2 x3 x4 x5 x6 x7 x8 x9 x10
      = aggR x1 x2 (val_main_v16 (F := Ideal) x0 x1 x3 x4 x5 x6) (val_main_v34 (F := Ideal) x0 x2 x7 x8 x9 x10) := rfl
  have e53 : val_main_v53 (F := Ideal) x0 x1 x2 x3 x4 x5 x6 x7 x8 x9 x10 x11 x12 x13 x14
      = Spec.mlpRowsF (val_main_v44 (F := Ideal) x0 x1 x2 x3 x4 x5 x6 x7 x8 x9 x10) x11 (Spec.vec x12) x13 (Spec.vec x14) :=
    hMlp_eq (R := 100000) (K := 128) (H := 64) (N := 64) (val_main_v44 (F := Ideal) x0 x1 x2 x3 x4 x5 x6 x7 x8 x9 x10) x11 x12 x13 x14
      bcast_S64_S1x64_1 bcast_S1x64_S100000x64_0_1 bcast_S_S100000x64 bcast_S64_S1x64_1 bcast_S1x64_S100000x64_0_1
  rw [e53]
  unfold val_main_v44 Spec.out
  rw [e43, m1_eq, m2_eq]
  exact mlp_concat (R := 100000) (N := 64) x0 _ concatenates_S100000x64_S100000x64_S100000x128_d1 x11 (Spec.vec x12) x13 (Spec.vec x14)

end Cert.ReferenceIdeal.RefValue

end
-- ==== Proof.lean ====
/-
  Two programs for one layer of a relational graph network are shown equal on the extended reals.

  Both gather rows of a node table by index words (one row per atom of a unary relation, two rows side by side per atom
  of a binary relation), send every gathered row through a two-layer perceptron relu(x·W₁ + b₁)·W₂ + b₂, sum the
  resulting messages into the nodes the index words name, and pass each node's own row together with its summed
  messages through an update perceptron. The kernel program runs the three perceptrons as kernels over blocks of rows
  and multiplies the node row and the summed messages by the top and the bottom half of the update matrix separately;
  the reference multiplies the two joined side by side by the whole matrix. A sum over the 128 joined coordinates is the
  sum over the first 64 plus the sum over the last 64, which needs only that addition on the extended reals is
  commutative and associative, so no finiteness of the inputs is used. The gathers and the summation of the messages
  are the same operations on the same operands in both programs and are compared as wholes.

  Spec.lean states the layer row by row; RegionValue0, 1 and 2 show what each kernel leaves in its output array;
  HostChain follows the kernel program's arrays from launch to the result; KernelRun is the kernel program's run with
  its result array named; RefGather and RefValue read the reference's result as the same layer.
-/
import proofs.«114375_j21973052686562_1_alg».proof.Defs
import proofs.«114375_j21973052686562_1_alg».proof.Proof.Gen.Kernel
import proofs.«114375_j21973052686562_1_alg».proof.Proof.Gen.Kernel.Skeleton
import proofs.«114375_j21973052686562_1_alg».proof.Proof.Gen.Kernel.Launch
import proofs.«114375_j21973052686562_1_alg».proof.Proof.Gen.Kernel.Points
import proofs.«114375_j21973052686562_1_alg».proof.Proof.Gen.Kernel.Frame
import proofs.«114375_j21973052686562_1_alg».proof.Proof.Gen.KernelIdeal
import proofs.«114375_j21973052686562_1_alg».proof.Proof.Gen.KernelIdeal.Skeleton
import proofs.«114375_j21973052686562_1_alg».proof.Proof.Gen.KernelIdeal.Launch
import proofs.«114375_j21973052686562_1_alg».proof.Proof.Gen.KernelIdeal.Points
import proofs.«114375_j21973052686562_1_alg».proof.Proof.Gen.KernelIdeal.Frame
import proofs.«114375_j21973052686562_1_alg».proof.Proof.Gen.ReferenceIdeal
import proofs.«114375_j21973052686562_1_alg».proof.Proof.Gen.Pre_finite_inputs
import proofs.«114375_j21973052686562_1_alg».proof.Proof.Gen.ReferenceIdeal.Run
import proofs.«114375_j21973052686562_1_alg».proof.Proof.Gen.ReferenceIdeal.Read
import proofs.«114375_j21973052686562_1_alg».proof.Proof.KernelRun
import proofs.«114375_j21973052686562_1_alg».proof.Proof.HostChain
import proofs.«114375_j21973052686562_1_alg».proof.Proof.RefValue
import Idealize.ShloMosaic.Adequacy
import Idealize.ShloMosaic.Init

set_option maxRecDepth 16384

noncomputable section

namespace Cert.Proof

open Idealize.ShloMosaic Idealize.SL.Sem

/-- The binary relation's gathered rows are spelled with the same operations in the two programs. -/
theorem g2_same (x0 : FVec Ideal Cert.KernelIdeal.S100000x64 .f32) (x2 : IVec Cert.KernelIdeal.S1000000x2 32) :
    Cert.ReferenceIdeal.RefValue.g2R x0 x2 = Cert.KernelIdeal.HostChain.g2K x0 x2 := rfl

/-- The summation of the messages into the nodes is spelled with the same operations in the two programs. -/
theorem agg_same (x1 : IVec Cert.KernelIdeal.S500000x1 32) (x2 : IVec Cert.KernelIdeal.S1000000x2 32) :
    Cert.ReferenceIdeal.RefValue.aggR x1 x2 = Cert.KernelIdeal.HostChain.aggK x1 x2 := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the layer of Spec.lean of the argument arrays in their result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out (Cert.KernelIdeal.HostChain.g2K (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.KernelIdeal.HostChain.aggK (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.HostChain.W6_v35 m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v53_eq (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))).trans ?_
    refine (Cert.ReferenceIdeal.RefValue.ref_value
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))).trans ?_
    obtain ⟨e0, e1, e2, e3, e4, e5, e6, e7, e8, e9, e10, e11, e12, e13, e14⟩ := hagree c
    rw [e0, e1, e2, e3, e4, e5, e6, e7, e8, e9, e10, e11, e12, e13, e14, g2_same, agg_same]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
